-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S500000x32 : Shape := ⟨2, ![500000, 32]⟩
abbrev S500000 : Shape := ⟨1, ![500000]⟩
abbrev S64x160 : Shape := ⟨2, ![64, 160]⟩
abbrev S64x128 : Shape := ⟨2, ![64, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S64x160 : S_.BroadcastsInDim S64x160 (![] : Fin 0 → Fin S64x160.rank)
  reducesTo_S64x160_S_d0_1 : S64x160.ReducesTo [0, 1] S_
  bcast_S_S64x128 : S_.BroadcastsInDim S64x128 (![] : Fin 0 → Fin S64x128.rank)
  reducesTo_S64x128_S_d0_1 : S64x128.ReducesTo [0, 1] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg2 : IVec S500000 32) (main_arg3 : IVec S500000 32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_c_6 : IVec S_ 32 := constantI S_ 32 0#32
  let main_v19 : IVec S500000 32 := broadcastInDim S500000 ![] bcast_S_S500000 main_c_6
  let main_v20 : IVec S500000 1 := cmpi .sge main_arg2 main_v19
  let main_c_7 : IVec S_ 32 := constantI S_ 32 100000#32
  let main_v21 : IVec S500000 32 := broadcastInDim S500000 ![] bcast_S_S500000 main_c_7
  let main_v22 : IVec S500000 1 := cmpi .slt main_arg2 main_v21
  let main_v23 : IVec S500000 1 := andi main_v20 main_v22
  let main_c_8 : IVec S_ 1 := constantI S_ 1 1#1
  let main_v24 : IVec S_ 1 := (fun x v => Host.reduce IntOp.andi x v reducesTo_S500000_S_d0 h_S_) main_v23 main_c_8
  let main_v25 : IVec S_ 1 := andi main_v18 main_v24
  let main_c_9 : IVec S_ 32 := constantI S_ 32 0#32
  let main_v26 : IVec S500000 32 := broadcastInDim S500000 ![] bcast_S_S500000 main_c_9
  let main_v27 : IVec S500000 1 := cmpi .sge main_arg3 main_v26
  let main_c_10 : IVec S_ 32 := constantI S_ 32 100000#32
  let main_v28 : IVec S500000 32 := broadcastInDim S500000 ![] bcast_S_S500000 main_c_10
  let main_v29 : IVec S500000 1 := cmpi .slt main_arg3 main_v28
  let main_v30 : IVec S500000 1 := andi main_v27 main_v29
  let main_c_11 : IVec S_ 1 := constantI S_ 1 1#1
  let main_v31 : IVec S_ 1 := (fun x v => Host.reduce IntOp.andi x v reducesTo_S500000_S_d0 h_S_) main_v30 main_c_11
  let main_v32 : IVec S_ 1 := andi main_v25 main_v31
  main_v32

def fn {F : FTy → Type} [FloatOps F] (main_arg0 : FVec F S100000x64 .f32) (main_arg1 : FVec F S500000x32 .f32) (main_arg2 : IVec S500000 32) (main_arg3 : IVec S500000 32) (main_arg4 : FVec F S64x160 .f32) (main_arg5 : FVec F S64x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S500000x32 .f32 := Host.absf main_arg1
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S64x160 .f32 := Host.absf main_arg4
  let main_cst_2 : FVec F S_ .f32 := constant S_ .f32 0x7F800000#32
  let main_v10 : FVec F S64x160 .f32 := broadcastInDim S64x160 ![] bcast_S_S64x160 main_cst_2
  let main_v11 : IVec S64x160 1 := cmpf .olt main_v9 main_v10
  let main_c_3 : IVec S_ 1 := constantI S_ 1 1#1
  let main_v12 : IVec S_ 1 := (fun x v => Host.reduce IntOp.andi x v reducesTo_S64x160_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg2 main_arg3 main_v13 main_v16
-- ==== Kernel.lean ====
abbrev S100000x64 : Shape := ⟨2, ![100000, 64]⟩
abbrev S500000x32 : Shape := ⟨2, ![500000, 32]⟩
abbrev S500000 : Shape := ⟨1, ![500000]⟩
abbrev S64x160 : Shape := ⟨2, ![64, 160]⟩
abbrev S64x128 : Shape := ⟨2, ![64, 128]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x64 : Shape := ⟨2, ![500000, 64]⟩
abbrev S160x64 : Shape := ⟨2, ![160, 64]⟩
abbrev S64x64 : Shape := ⟨2, ![64, 64]⟩
abbrev S32x64 : Shape := ⟨2, ![32, 64]⟩
abbrev S10000x64 : Shape := ⟨2, ![10000, 64]⟩
abbrev S10000x32 : Shape := ⟨2, ![10000, 32]⟩
abbrev S128x64 : Shape := ⟨2, ![128, 64]⟩

abbrev nBuf : Space → Nat
  | .hbm => 76
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S500000x32, .f32⟩
  | .hbm, ⟨2, _⟩ => ⟨S500000, .i32⟩
  | .hbm, ⟨3, _⟩ => ⟨S500000, .i32⟩
  | .hbm, ⟨4, _⟩ => ⟨S64x160, .f32⟩
  | .hbm, ⟨5, _⟩ => ⟨S64x128, .f32⟩
  | .hbm, ⟨6, _⟩ => ⟨S_, .i32⟩
  | .hbm, ⟨7, _⟩ => ⟨S500000, .i32⟩
  | .hbm, ⟨8, _⟩ => ⟨S500000, .i1⟩
  | .hbm, ⟨9, _⟩ => ⟨S_, .i32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S500000x1, .i32⟩
  | .hbm, ⟨14, _⟩ => ⟨S1, .i32⟩
  | .hbm, ⟨15, _⟩ => ⟨S_, .i32⟩
  | .hbm, ⟨16, _⟩ => ⟨S500000x1, .i32⟩
  | .hbm, ⟨17, _⟩ => ⟨S500000x1, .i1⟩
  | .hbm, ⟨18, _⟩ => ⟨S1x1, .i32⟩
  | .hbm, ⟨19, _⟩ => ⟨S500000x1, .i32⟩
  | .hbm, ⟨20, _⟩ => ⟨S500000x1, .i1⟩
  | .hbm, ⟨21, _⟩ => ⟨S500000x1, .i1⟩
  | .hbm, ⟨22, _⟩ => ⟨S_, .i1⟩
  | .hbm, ⟨23, _⟩ => ⟨S500000, .i1⟩
  | .hbm, ⟨24, _⟩ => ⟨S500000x64, .f32⟩
  | .hbm, ⟨25, _⟩ => ⟨S500000x64, .i1⟩
  | .hbm, ⟨26, _⟩ => ⟨S_, .f32⟩
  | .hbm, ⟨27, _⟩ => ⟨S500000x64, .f32⟩
  | .hbm, ⟨28, _⟩ => ⟨S500000x64, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S1, .i32⟩
  | .hbm, ⟨38, _⟩ => ⟨S_, .i32⟩
  | .hbm, ⟨39, _⟩ => ⟨S500000x1, .i32⟩
  | .hbm, ⟨40, _⟩ => ⟨S500000x1, .i1⟩
  | .hbm, ⟨41, _⟩ => ⟨S1x1, .i32⟩
  | .hbm, ⟨42, _⟩ => ⟨S500000x1, .i32⟩
  | .hbm, ⟨43, _⟩ => ⟨S500000x1, .i1⟩
  | .hbm, ⟨44, _⟩ => ⟨S500000x1, .i1⟩
  | .hbm, ⟨45, _⟩ => ⟨S_, .i1⟩
  | .hbm, ⟨46, _⟩ => ⟨S500000, .i1⟩
  | .hbm, ⟨47, _⟩ => ⟨S500000x64, .f32⟩
  | .hbm, ⟨48, _⟩ => ⟨S500000x64, .i1⟩
  | .hbm, ⟨49, _⟩ => ⟨S_, .f32⟩
  | .hbm, ⟨50, _⟩ => ⟨S500000x64, .f32⟩
  | .hbm, ⟨51, _⟩ => ⟨S500000x64, .f32⟩
  | .hbm, ⟨52, _⟩ => ⟨S160x64, .f32⟩
  | .hbm, ⟨53, _⟩ => ⟨S64x64, .f32⟩
  | .hbm, ⟨54, _⟩ => ⟨S64x64, .bf16⟩
  | .hbm, ⟨55, _⟩ => ⟨S64x64, .f32⟩
  | .hbm, ⟨56, _⟩ => ⟨S64x64, .bf16⟩
  | .hbm, ⟨57, _⟩ => ⟨S32x64, .f32⟩
  | .hbm, ⟨58, _⟩ => ⟨S32x64, .bf16⟩
  | .hbm, ⟨59, _⟩ => ⟨S500000x64, .f32⟩
  | .hbm, ⟨60, _⟩ => ⟨S500000x64, .f32⟩
  | .hbm, ⟨61, _⟩ => ⟨S_, .f32⟩
  | .hbm, ⟨62, _⟩ => ⟨S100000x64, .f32⟩
  | .hbm, ⟨63, _⟩ => ⟨S500000x1, .i32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S500000x1, .i32⟩
  | .hbm, ⟨68, _⟩ => ⟨S100000x64, .f32⟩
  | .hbm, ⟨69, _⟩ => ⟨S100000x64, .f32⟩
  | .hbm, ⟨70, _⟩ => ⟨S128x64, .f32⟩
  | .hbm, ⟨71, _⟩ => ⟨S64x64, .f32⟩
  | .hbm, ⟨72, _⟩ => ⟨S64x64, .bf16⟩
  | .hbm, ⟨73, _⟩ => ⟨S64x64, .f32⟩
  | .hbm, ⟨74, _⟩ => ⟨S64x64, .bf16⟩
  | .hbm, ⟨75, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x32, .f32⟩
  | .local _ .vmem, ⟨5, _⟩ => ⟨S10000x32, .f32⟩
  | .local _ .vmem, ⟨6, _⟩ => ⟨S64x64, .bf16⟩
  | .local _ .vmem, ⟨7, _⟩ => ⟨S64x64, .bf16⟩
  | .local _ .vmem, ⟨8, _⟩ => ⟨S32x64, .bf16⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x32, .f32⟩
  | .local _ .vmem, ⟨16, _⟩ => ⟨S10000x32, .f32⟩
  | .local _ .vmem, ⟨17, _⟩ => ⟨S64x64, .bf16⟩
  | .local _ .vmem, ⟨18, _⟩ => ⟨S64x64, .bf16⟩
  | .local _ .vmem, ⟨19, _⟩ => ⟨S32x64, .bf16⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .bf16⟩
  | .local _ .vmem, ⟨27, _⟩ => ⟨S64x64, .bf16⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst_0 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x64_0 : S500000.BroadcastsInDim S500000x64 (![0] : Fin 1 → Fin S500000x64.rank)
  bcast_S_S500000x64 : S_.BroadcastsInDim S500000x64 (![] : Fin 0 → Fin S500000x64.rank)
  transposes_S64x160_S160x64_1_0 : S64x160.Transposes [1, 0] S160x64
  slices_S160x64_S64x64_0_0 : S160x64.Slices ![0, 0] S64x64
  bitsLt_bf16_f32 : FTy.bits .bf16 < FTy.bits .f32
  slices_S160x64_S64x64_64_0 : S160x64.Slices ![64, 0] S64x64
  slices_S160x64_S32x64_128_0 : S160x64.Slices ![128, 0] S32x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x32_S10000x32_0_0 : ∀ a, (![0, 0] : Fin 2 → Nat) a + S10000x32.size a ≤ S10000x32.size a
  h_S10000x32 : 0 < S10000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  bcast_S_S100000x64 : S_.BroadcastsInDim S100000x64 (![] : Fin 0 → Fin S100000x64.rank)
  transposes_S64x128_S128x64_1_0 : S64x128.Transposes [1, 0] S128x64
  slices_S128x64_S64x64_0_0 : S128x64.Slices ![0, 0] S64x64
  slices_S128x64_S64x64_64_0 : S128x64.Slices ![64, 0] S64x64
  gather_S100000x64_S500000x1_S500000x64_1_0_n_n_0_1_164_wf : GatherDims.WF S100000x64 S500000x1 S500000x64 [1] [0] [] [0] [] 1 ![1, 64]
  dot_S10000x64_S64x64_S10000x64_1_0_0_1_n_n_wf : DotDims.WF S10000x64 S64x64 S10000x64 [1] [0] [0] [1] [] []
  dot_S10000x32_S32x64_S10000x64_1_0_0_1_n_n_wf : DotDims.WF S10000x32 S32x64 S10000x64 [1] [0] [0] [1] [] []
  scatter_S100000x64_S500000x1_S500000x64_1_0_0_1_wf : ScatterDims.WF S100000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S500000x64.size a
  hwx0_1 : ∀ i : grid0.Coords, EltTy.bits .f32 = 32 ∨ (Rect.block (s := S500000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S500000x32.size a
  hwx0_2 : ∀ i : grid0.Coords, EltTy.bits .f32 = 32 ∨ (Rect.block (s := S500000x32) S10000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .bf16 = 32 ∨ (Rect.block (s := S32x64) S32x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S500000x64.size a
  hwx0_6 : ∀ i : grid0.Coords, EltTy.bits .f32 = 32 ∨ (Rect.block (s := S500000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S500000x64.size a
  hwx1_0 : ∀ i : grid1.Coords, EltTy.bits .f32 = 32 ∨ (Rect.block (s := S500000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S500000x64.size a
  hwx1_1 : ∀ i : grid1.Coords, EltTy.bits .f32 = 32 ∨ (Rect.block (s := S500000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S500000x32.size a
  hwx1_2 : ∀ i : grid1.Coords, EltTy.bits .f32 = 32 ∨ (Rect.block (s := S500000x32) S10000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .bf16 = 32 ∨ (Rect.block (s := S32x64) S32x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S500000x64.size a
  hwx1_6 : ∀ i : grid1.Coords, EltTy.bits .f32 = 32 ∨ (Rect.block (s := S500000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)

variable [Facts₀]

def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf

abbrev win0_0 : Pipeline.Window sig grid0 :=
  Pipeline.Window.ofSpec (Memref.whole main_v0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S10000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S500000x32 : Shape := ⟨2, ![500000, 32]⟩
abbrev S500000 : Shape := ⟨1, ![500000]⟩
abbrev S64x160 : Shape := ⟨2, ![64, 160]⟩
abbrev S64x128 : Shape := ⟨2, ![64, 128]⟩
abbrev S1000000 : Shape := ⟨1, ![1000000]⟩
abbrev S1000000x32 : Shape := ⟨2, ![1000000, 32]⟩
abbrev S_ : Shape := ⟨0, ![]⟩
abbrev S1000000x1 : Shape := ⟨2, ![1000000, 1]⟩
abbrev S1000000x64 : Shape := ⟨2, ![1000000, 64]⟩
abbrev S1000000x160 : Shape := ⟨2, ![1000000, 160]⟩
abbrev S160x64 : Shape := ⟨2, ![160, 64]⟩
abbrev S100000x128 : Shape := ⟨2, ![100000, 128]⟩
abbrev S128x64 : Shape := ⟨2, ![128, 64]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S500000x32, .f32⟩
  | .hbm, ⟨2, _⟩ => ⟨S500000, .i32⟩
  | .hbm, ⟨3, _⟩ => ⟨S500000, .i32⟩
  | .hbm, ⟨4, _⟩ => ⟨S64x160, .f32⟩
  | .hbm, ⟨5, _⟩ => ⟨S64x128, .f32⟩
  | .hbm, ⟨6, _⟩ => ⟨S1000000, .i32⟩
  | .hbm, ⟨7, _⟩ => ⟨S1000000, .i32⟩
  | .hbm, ⟨8, _⟩ => ⟨S1000000x32, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S1000000x160, .f32⟩
  | .hbm, ⟨28, _⟩ => ⟨S160x64, .f32⟩
  | .hbm, ⟨29, _⟩ => ⟨S1000000x64, .f32⟩
  | .hbm, ⟨30, _⟩ => ⟨S_, .f32⟩
  | .hbm, ⟨31, _⟩ => ⟨S_, .f32⟩
  | .hbm, ⟨32, _⟩ => ⟨S1000000x64, .f32⟩
  | .hbm, ⟨33, _⟩ => ⟨S1000000x64, .i1⟩
  | .hbm, ⟨34, _⟩ => ⟨S_, .f32⟩
  | .hbm, ⟨35, _⟩ => ⟨S1000000x64, .f32⟩
  | .hbm, ⟨36, _⟩ => ⟨S1000000x64, .f32⟩
  | .hbm, ⟨37, _⟩ => ⟨S1000000x64, .f32⟩
  | .hbm, ⟨38, _⟩ => ⟨S_, .f32⟩
  | .hbm, ⟨39, _⟩ => ⟨S100000x64, .f32⟩
  | .hbm, ⟨40, _⟩ => ⟨S1000000x1, .i32⟩
  | .hbm, ⟨41, _⟩ => ⟨S100000x64, .f32⟩
  | .hbm, ⟨42, _⟩ => ⟨S100000x128, .f32⟩
  | .hbm, ⟨43, _⟩ => ⟨S128x64, .f32⟩
  | .hbm, ⟨44, _⟩ => ⟨S100000x64, .f32⟩
  | .hbm, ⟨45, _⟩ => ⟨S_, .f32⟩
  | .hbm, ⟨46, _⟩ => ⟨S_, .f32⟩
  | .hbm, ⟨47, _⟩ => ⟨S100000x64, .f32⟩
  | .hbm, ⟨48, _⟩ => ⟨S100000x64, .i1⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v27 : Ref sig .tc := ⟨.hbm, 52, rfl⟩

abbrev nD : Nat := 1
abbrev τ : Topo := Topo.v7x

variable {F : FTy → Type} [FloatOps F]

class Facts₀ : Prop where
  concatenates_S500000_S500000_S1000000_d0 : Shape.Concatenates [S500000, S500000] S1000000 0
  concatenates_S500000x32_S500000x32_S1000000x32_d0 : Shape.Concatenates [S500000x32, S500000x32] S1000000x32 0
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x32_S1000000x160_d1 : Shape.Concatenates [S1000000x64, S1000000x64, S1000000x32] S1000000x160 1
  transposes_S64x160_S160x64_1_0 : S64x160.Transposes [1, 0] S160x64
  bcast_S_S1000000x64 : S_.BroadcastsInDim S1000000x64 (![] : Fin 0 → Fin S1000000x64.rank)
  bcast_S_S100000x64 : S_.BroadcastsInDim S100000x64 (![] : Fin 0 → Fin S100000x64.rank)
  concatenates_S100000x64_S100000x64_S100000x128_d1 : Shape.Concatenates [S100000x64, S100000x64] S100000x128 1
  transposes_S64x128_S128x64_1_0 : S64x128.Transposes [1, 0] S128x64
  gather_S100000x64_S1000000x1_S1000000x64_1_0_n_n_0_1_164_wf : GatherDims.WF S100000x64 S1000000x1 S1000000x64 [1] [0] [] [0] [] 1 ![1, 64]
  dot_S1000000x160_S160x64_S1000000x64_1_0_0_1_n_n_wf : DotDims.WF S1000000x160 S160x64 S1000000x64 [1] [0] [0] [1] [] []
  scatter_S100000x64_S1000000x1_S1000000x64_1_0_0_1_wf : ScatterDims.WF S100000x64 S1000000x1 S1000000x64 [1] [0] [0] 1
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x160_S160x64_S1000000x64_1_0_0_1_n_n : DotDims S1000000x160 S160x64 S1000000x64 where
  lhsContracting := [1]
  rhsContracting := [0]
  lhsNonContracting := [0]
  rhsNonContracting := [1]
  lhsBatch := []
  rhsBatch := []
  wf := dot_S1000000x160_S160x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Fin

/-!
# The layer as one function of its six inputs

A message-passing layer over a graph with 100000 nodes (64 features each) and 500000 edges (32 features each).
Every edge (s, d) sends two messages: one along the edge, read from the rows [nf s | nf d | ef e], and one against
it, read from [nf d | nf s | ef e]; a message is the leaky rectifier of the row times the 160-column weight.
A node sums the messages that arrive at it (along the edge at d, against it at s), and its new features are the
leaky rectifier of [nf n | sum] times the 128-column weight.

Two spellings are given. The first is built from small table combinators, with every contraction split at the seams
of the concatenated rows and the node sum split into its two halves. The second is over the concatenated rows and
the doubled edge list. They are the same function; that needs only that addition of extended reals is commutative
and associative (Algebra.lean).
-/

noncomputable section

open scoped BigOperators

namespace Cert.Gnn

open Idealize.ShloMosaic Idealize.ShloMosaic.ValueIdx

/-- A rank-2 table of extended reals. -/
abbrev Tab (a b : Nat) : Type := (⟨2, ![a, b]⟩ : Shape).Idx → EReal
/-- A vector of 32-bit indices. -/
abbrev Ids (n : Nat) : Type := (⟨1, ![n]⟩ : Shape).Idx → BitVec 32

/-- A table from its entries by row and column. -/
def tab2 {a b : Nat} (f : Fin a → Fin b → EReal) : Tab a b := fun i => f (i 0) (i 1)

theorem tab2_ix2 {a b : Nat} (f : Fin a → Fin b → EReal) (p : Fin a) (q : Fin b) : tab2 f (ix2 p q) = f p q := rfl

/-- The rectifier's slope, the f32 nearest to 0.01, as the extended real it denotes. -/
def slope : EReal := Ideal.ofBits .f32 0x3C23D70A#32

/-- The leaky rectifier: y where y ≥ 0, y · slope elsewhere (the ordered comparison of the extended reals). -/
def lk (y : EReal) : EReal := Scalar.select (Ideal.cmp .oge y 0) y (y * slope)

/-- The row of the node table a 32-bit index names: read signed, clamped into the table. -/
def rowOf (w : BitVec 32) : Fin 100000 := ⟨min w.toInt.toNat (100000 - 1), by omega⟩

/-- Every index names a row of the node table. -/
def InRange (ids : Ids 500000) : Prop := ∀ e : Fin 500000, 0 ≤ (ids (ix1 e)).toInt ∧ (ids (ix1 e)).toInt < 100000

/-! ## The combinators -/

/-- Row e is the node row the e-th index names. -/
def takeTab (nf : Tab 100000 64) (ids : Ids 500000) : Tab 500000 64 :=
  tab2 fun e k => nf (ix2 (rowOf (ids (ix1 e))) k)

/-- Rows off, …, off + r − 1 of the transposed weight: entry (k, o) is W (o, off + k). -/
def wRows {C : Nat} (W : Tab 64 C) (off r : Nat) (h : off + r ≤ C) : Tab r 64 :=
  tab2 fun k o => W (ix2 o ⟨off + k.val, by omega⟩)

/-- A message table: the rectifier of A · Ws + B · Wd + Ef · Wf, the three products added in that order. -/
def msgTab (A B : Tab 500000 64) (Ef : Tab 500000 32) (Ws Wd : Tab 64 64) (Wf : Tab 32 64) : Tab 500000 64 :=
  tab2 fun e o => lk ((∑ k : Fin 64, A (ix2 e k) * Ws (ix2 k o) + ∑ k : Fin 64, B (ix2 e k) * Wd (ix2 k o))
    + ∑ k : Fin 32, Ef (ix2 e k) * Wf (ix2 k o))

/-- Rows of M summed by the node their index names, from zero: entry (n, k) is 0 plus the sum of M (e, k) over the e
    whose index, read signed, is n. -/
def segTab (ids : Ids 500000) (M : Tab 500000 64) : Tab 100000 64 :=
  tab2 fun n k => 0 + ∑ e ∈ Finset.univ.filter (fun e : Fin 500000 => (ids (ix1 e)).toInt = (n.val : ℤ)), M (ix2 e k)

/-- Entry by entry sum. -/
def addTab {a b : Nat} (X Y : Tab a b) : Tab a b := fun i => X i + Y i

/-- The node update: the rectifier of X · Wa + R · Wb. -/
def finTab (X R : Tab 100000 64) (Wa Wb : Tab 64 64) : Tab 100000 64 :=
  tab2 fun n o => lk (∑ k : Fin 64, X (ix2 n k) * Wa (ix2 k o) + ∑ k : Fin 64, R (ix2 n k) * Wb (ix2 k o))

section
variable (nf : Tab 100000 64) (ef : Tab 500000 32) (src dst : Ids 500000) (We : Tab 64 160) (Wn : Tab 64 128)

/-- Messages along the edges (first = true) or against them (first = false). -/
def msgAlong : Tab 500000 64 :=
  msgTab (takeTab nf src) (takeTab nf dst) ef (wRows We 0 64 (by omega)) (wRows We 64 64 (by omega)) (wRows We 128 32 (by omega))
def msgAgainst : Tab 500000 64 :=
  msgTab (takeTab nf dst) (takeTab nf src) ef (wRows We 0 64 (by omega)) (wRows We 64 64 (by omega)) (wRows We 128 32 (by omega))

/-- What arrives at each node. -/
def arrive : Tab 100000 64 :=
  addTab (segTab dst (msgAlong nf ef src dst We)) (segTab src (msgAgainst nf ef src dst We))

/-- The layer, split at the seams. -/
def layer : Tab 100000 64 :=
  finTab nf (arrive nf ef src dst We) (wRows Wn 0 64 (by omega)) (wRows Wn 64 64 (by omega))

/-! ## Over the concatenated rows and the doubled edge list -/

/-- Edge e' of the doubled list: its first endpoint … -/
def srcAll (e' : Fin 1000000) : BitVec 32 :=
  if h : e'.val < 500000 then src (ix1 ⟨e'.val, h⟩) else dst (ix1 ⟨e'.val - 500000, by omega⟩)
/-- … its second endpoint … -/
def dstAll (e' : Fin 1000000) : BitVec 32 :=
  if h : e'.val < 500000 then dst (ix1 ⟨e'.val, h⟩) else src (ix1 ⟨e'.val - 500000, by omega⟩)
/-- … and the edge of the original list it repeats. -/
def edgeOf (e' : Fin 1000000) : Fin 500000 :=
  if h : e'.val < 500000 then ⟨e'.val, h⟩ else ⟨e'.val - 500000, by omega⟩

/-- The concatenated row of a doubled edge: [nf first | nf second | ef]. -/
def catRow (e' : Fin 1000000) (k : Fin 160) : EReal :=
  if h : k.val < 64 then nf (ix2 (rowOf (srcAll src dst e')) ⟨k.val, h⟩)
  else if h2 : k.val < 128 then nf (ix2 (rowOf (dstAll src dst e')) ⟨k.val - 64, by omega⟩)
  else ef (ix2 (edgeOf e') ⟨k.val - 128, by omega⟩)

/-- A doubled edge's message. -/
def msgAll (e' : Fin 1000000) (o : Fin 64) : EReal :=
  lk (∑ k : Fin 160, catRow nf ef src dst e' k * We (ix2 o k))

/-- What arrives at node n over the doubled list. -/
def redAll (n : Fin 100000) (k : Fin 64) : EReal :=
  0 + ∑ e' ∈ Finset.univ.filter (fun e' : Fin 1000000 => (dstAll src dst e').toInt = (n.val : ℤ)), msgAll nf ef src dst We e' k

/-- The concatenated row of a node: [nf n | what arrives at n]. -/
def catNode (n : Fin 100000) (k : Fin 128) : EReal :=
  if h : k.val < 64 then nf (ix2 n ⟨k.val, h⟩) else redAll nf ef src dst We n ⟨k.val - 64, by omega⟩

/-- The layer over the concatenated rows. -/
def layerAll : Tab 100000 64 :=
  tab2 fun n o => lk (∑ k : Fin 128, catNode nf ef src dst We n k * Wn (ix2 o k))

end

end Cert.Gnn

end
-- ==== Proof.KArgs.lean ====
import proofs.«407627_j49795850829975_3_alg».proof.KernelIdeal
import proofs.«407627_j49795850829975_3_alg».proof.Proof.Spec

/-! # The kernel program's six argument arrays, as the tables and index lists the layer is a function of -/

noncomputable section

namespace Cert.KernelIdeal.GnnK

open Idealize.ShloMosaic Idealize.ShloMosaic.TcCoe Idealize.SL.Sem
open Cert.KernelIdeal Cert.Gnn

variable (m : (ℓ : Loc nD τ sig) → Buf (Elt Ideal) ℓ)

/-- The node table. -/
abbrev nfOf (c : Dev nD) : Tab 100000 64 := m ((c : Thread nD τ).loc main_arg0)
/-- The edge table. -/
abbrev efOf (c : Dev nD) : Tab 500000 32 := m ((c : Thread nD τ).loc main_arg1)
/-- The edges' first endpoints. -/
abbrev srcOf (c : Dev nD) : Ids 500000 := m ((c : Thread nD τ).loc main_arg2)
/-- The edges' second endpoints. -/
abbrev dstOf (c : Dev nD) : Ids 500000 := m ((c : Thread nD τ).loc main_arg3)
/-- The message weight. -/
abbrev WeOf (c : Dev nD) : Tab 64 160 := m ((c : Thread nD τ).loc main_arg4)
/-- The node-update weight. -/
abbrev WnOf (c : Dev nD) : Tab 64 128 := m ((c : Thread nD τ).loc main_arg5)

end Cert.KernelIdeal.GnnK

end
-- ==== Proof.KRegionMsg0.lean ====
import proofs.«407627_j49795850829975_3_alg».proof.Proof.Gen.KernelIdeal.Frame
import proofs.«407627_j49795850829975_3_alg».proof.Proof.Spec
import Idealize.ShloMosaic.Lib.Pipeline.Value

/-! # The first message launch: the array its fifty blocks leave, as one table of the entry contents -/

set_option maxRecDepth 16384

noncomputable section

open scoped BigOperators

namespace Cert.KernelIdeal.GnnK

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gnn

variable (V : (c : Dev nD) → (b : Ref sig .tc) → Buf (Elt Ideal) ((c : Thread nD τ).loc b))

/-! ## The two contractions' operand indices, coordinate by coordinate

Both contract the left operand's columns with the right operand's rows: at output entry j and contraction position k
the left operand is read at (j 0, k) and the right one at (k, j 1). -/

private theorem lhs64_0 (j : S10000x64.Idx) (k : dot_S10000x64_S64x64_S10000x64_1_0_0_1_n_n.contr.Idx) :
    (dot_S10000x64_S64x64_S10000x64_1_0_0_1_n_n.lhsIdx j k 0 : ℕ) = j 0 := by
  simp [DotDims.lhsIdx, dot_S10000x64_S64x64_S10000x64_1_0_0_1_n_n]; rfl
private theorem lhs64_1 (j : S10000x64.Idx) (k : dot_S10000x64_S64x64_S10000x64_1_0_0_1_n_n.contr.Idx) :
    (dot_S10000x64_S64x64_S10000x64_1_0_0_1_n_n.lhsIdx j k 1 : ℕ) = k ⟨0, by decide⟩ := by
  simp [DotDims.lhsIdx, dot_S10000x64_S64x64_S10000x64_1_0_0_1_n_n]; rfl
private theorem rhs64_0 (j : S10000x64.Idx) (k : dot_S10000x64_S64x64_S10000x64_1_0_0_1_n_n.contr.Idx) :
    (dot_S10000x64_S64x64_S10000x64_1_0_0_1_n_n.rhsIdx j k 0 : ℕ) = k ⟨0, by decide⟩ := by
  simp [DotDims.rhsIdx, dot_S10000x64_S64x64_S10000x64_1_0_0_1_n_n]; rfl
private theorem rhs64_1 (j : S10000x64.Idx) (k : dot_S10000x64_S64x64_S10000x64_1_0_0_1_n_n.contr.Idx) :
    (dot_S10000x64_S64x64_S10000x64_1_0_0_1_n_n.rhsIdx j k 1 : ℕ) = j 1 := by
  simp [DotDims.rhsIdx, dot_S10000x64_S64x64_S10000x64_1_0_0_1_n_n]; rfl

private theorem lhs32_0 (j : S10000x64.Idx) (k : dot_S10000x32_S32x64_S10000x64_1_0_0_1_n_n.contr.Idx) :
    (dot_S10000x32_S32x64_S10000x64_1_0_0_1_n_n.lhsIdx j k 0 : ℕ) = j 0 := by
  simp [DotDims.lhsIdx, dot_S10000x32_S32x64_S10000x64_1_0_0_1_n_n]; rfl
private theorem lhs32_1 (j : S10000x64.Idx) (k : dot_S10000x32_S32x64_S10000x64_1_0_0_1_n_n.contr.Idx) :
    (dot_S10000x32_S32x64_S10000x64_1_0_0_1_n_n.lhsIdx j k 1 : ℕ) = k ⟨0, by decide⟩ := by
  simp [DotDims.lhsIdx, dot_S10000x32_S32x64_S10000x64_1_0_0_1_n_n]; rfl
private theorem rhs32_0 (j : S10000x64.Idx) (k : dot_S10000x32_S32x64_S10000x64_1_0_0_1_n_n.contr.Idx) :
    (dot_S10000x32_S32x64_S10000x64_1_0_0_1_n_n.rhsIdx j k 0 : ℕ) = k ⟨0, by decide⟩ := by
  simp [DotDims.rhsIdx, dot_S10000x32_S32x64_S10000x64_1_0_0_1_n_n]; rfl
private theorem rhs32_1 (j : S10000x64.Idx) (k : dot_S10000x32_S32x64_S10000x64_1_0_0_1_n_n.contr.Idx) :
    (dot_S10000x32_S32x64_S10000x64_1_0_0_1_n_n.rhsIdx j k 1 : ℕ) = j 1 := by
  simp [DotDims.rhsIdx, dot_S10000x32_S32x64_S10000x64_1_0_0_1_n_n]; rfl

/-! ## A block product into the zero accumulator, read at an entry -/

/-- A 10000×64 block times a 64×64 block: entry (p, q) is the sum over k of A (p, k) · B (k, q). -/
private theorem mm64_apply (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  show FloatOps.matmul dot_S10000x64_S64x64_S10000x64_1_0_0_1_n_n none A B _ (ix2 p q) = _
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs64_0 _ _
    | ⟨1, _⟩ => exact (lhs64_1 _ _).trans hk
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs64_0 _ _).trans hk
    | ⟨1, _⟩ => exact rhs64_1 _ _
  rw [hl, hr]

/-- A 10000×32 block times a 32×64 block: entry (p, q) is the sum over k of A (p, k) · B (k, q). -/
private theorem mm32_apply (A : FVec Ideal S10000x32 .bf16) (B : FVec Ideal S32x64 .bf16) (p : Fin 10000) (q : Fin 64) :
    matmul dot_S10000x32_S32x64_S10000x64_1_0_0_1_n_n none A B (constant (F := Ideal) S10000x64 .f32 0x00000000#32) (ix2 p q)
      = ∑ k : Fin 32, A (ix2 p k) * B (ix2 k q) := by
  show FloatOps.matmul dot_S10000x32_S32x64_S10000x64_1_0_0_1_n_n none A B _ (ix2 p q) = _
  rw [Ideal.matmul_constant_zero_apply,
    ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have hl : dot_S10000x32_S32x64_S10000x64_1_0_0_1_n_n.lhsIdx (ix2 p q)
      ((contrEquiv1 dot_S10000x32_S32x64_S10000x64_1_0_0_1_n_n 32 rfl rfl).symm k) = ix2 p k := by
    funext a; apply Fin.ext
    match a with
    | ⟨0, _⟩ => exact lhs32_0 _ _
    | ⟨1, _⟩ => exact (lhs32_1 _ _).trans hk
  have hr : dot_S10000x32_S32x64_S10000x64_1_0_0_1_n_n.rhsIdx (ix2 p q)
      ((contrEquiv1 dot_S10000x32_S32x64_S10000x64_1_0_0_1_n_n 32 rfl rfl).symm k) = ix2 k q := by
    funext a; apply Fin.ext
    match a with
    | ⟨0, _⟩ => exact (rhs32_0 _ _).trans hk
    | ⟨1, _⟩ => exact rhs32_1 _ _
  rw [hl, hr]

/-! ## What the body computes, at an entry -/

/-- Entry (p, q) of the body's one stored value: the rectifier of the three row-by-column sums, added in the body's
    order. The format changes are the identity on extended reals, the zero word denotes 0, and the rectifier is the
    select the body ends with. -/
private theorem pay_apply (x0 x1 : Vec Ideal S10000x64 .f32) (x2 : Vec Ideal S10000x32 .f32) (x3 x4 : Vec Ideal S64x64 .bf16)
    (x5 : Vec Ideal S32x64 .bf16) (p : Fin 10000) (q : Fin 64) :
    k0_pay1 (F := Ideal) x0 x1 x2 x3 x4 x5 (ix2 p q)
      = lk ((∑ k : Fin 64, x0 (ix2 p k) * x3 (ix2 k q) + ∑ k : Fin 64, x1 (ix2 p k) * x4 (ix2 k q))
          + ∑ k : Fin 32, x2 (ix2 p k) * x5 (ix2 k q)) := by
  unfold k0_pay1
  simp only [shapeCast_self]
  rw [select_apply, cmpf_apply, mulf_apply, broadcast_apply, broadcast_apply, addf_apply, addf_apply,
    mm64_apply, mm64_apply, mm32_apply]
  simp only [truncf_apply]
  unfold lk Cert.Gnn.slope
  show Scalar.select (Ideal.cmp .oge _ (Ideal.ofBits .f32 0x00000000#32)) _ (_ * Ideal.ofBits .f32 0x3C23D70A#32) = _
  rw [Ideal.ofBits_zero_f32]

private theorem hz : (![0, 0] : Fin 2 → Nat) = fun _ => 0 := funext fun a => by fin_cases a <;> rfl

/-- What the body leaves in the output block, at an entry: it loads its six blocks whole and stores one whole block. -/
private theorem out_apply (x0 x1 : Vec Ideal S10000x64 .f32) (x2 : Vec Ideal S10000x32 .f32) (x3 x4 : Vec Ideal S64x64 .bf16)
    (x5 : Vec Ideal S32x64 .bf16) (p : Fin 10000) (q : Fin 64) :
    out0_6 (F := Ideal) x0 x1 x2 x3 x4 x5 (ix2 p q)
      = lk ((∑ k : Fin 64, x0 (ix2 p k) * x3 (ix2 k q) + ∑ k : Fin 64, x1 (ix2 p k) * x4 (ix2 k q))
          + ∑ k : Fin 32, x2 (ix2 p k) * x5 (ix2 k q)) := by
  unfold out0_6
  rw [View.canon_unit_zero hz]
  simp only [View.ld_unit_zero (S := S10000x64) hz, View.ld_unit_zero (S := S10000x32) hz,
    View.ld_unit_zero (S := S64x64) hz, View.ld_unit_zero (S := S32x64) hz]
  exact pay_apply x0 x1 x2 x3 x4 x5 p q

/-! ## From blocks to the array -/

/-- The six input arrays as the launch finds them, at their table types. -/
private abbrev a0 (c : Dev nD) : Tab 500000 64 := V c main_v0
private abbrev a1 (c : Dev nD) : Tab 500000 64 := V c main_v1
private abbrev a2 (c : Dev nD) : Tab 500000 32 := V c main_arg1
private abbrev a3 (c : Dev nD) : Tab 64 64 := V c main_v4
private abbrev a4 (c : Dev nD) : Tab 64 64 := V c main_v6
private abbrev a5 (c : Dev nD) : Tab 32 64 := V c main_v8

/-- A message table at an entry. -/
private theorem msgTab_ix2 (A B : Tab 500000 64) (Ef : Tab 500000 32) (Ws Wd : Tab 64 64) (Wf : Tab 32 64)
    (e : Fin 500000) (o : Fin 64) :
    msgTab A B Ef Ws Wd Wf (ix2 e o)
      = lk ((∑ k : Fin 64, A (ix2 e k) * Ws (ix2 k o) + ∑ k : Fin 64, B (ix2 e k) * Wd (ix2 k o))
          + ∑ k : Fin 32, Ef (ix2 e k) * Wf (ix2 k o)) := rfl

/-! The block indices over the grid: the three row windows and the output move with the point, ten thousand rows at a
    time; the three weight windows stay on their one block. -/

private theorem idx0 : ∀ t : Fin cfg0.N, win0_0.index t (0 : Fin 2) = t.val ∧ win0_0.index t (1 : Fin 2) = 0 :=
  (by decide +kernel : ∀ t : Fin grid0.N, _)
private theorem idx1 : ∀ t : Fin cfg0.N, win0_1.index t (0 : Fin 2) = t.val ∧ win0_1.index t (1 : Fin 2) = 0 :=
  (by decide +kernel : ∀ t : Fin grid0.N, _)
private theorem idx2 : ∀ t : Fin cfg0.N, win0_2.index t (0 : Fin 2) = t.val ∧ win0_2.index t (1 : Fin 2) = 0 :=
  (by decide +kernel : ∀ t : Fin grid0.N, _)
private theorem idx3 : ∀ t : Fin cfg0.N, win0_3.index t (0 : Fin 2) = 0 ∧ win0_3.index t (1 : Fin 2) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)
private theorem idx6 : ∀ t : Fin cfg0.N, win0_6.index t (0 : Fin 2) = t.val ∧ win0_6.index t (1 : Fin 2) = 0 :=
  (by decide +kernel : ∀ t : Fin grid0.N, _)

/-- The row of the edge tables that row p of point t's block is: 10000 t + p. -/
private def row (t : Fin cfg0.N) (p : Fin 10000) : Fin 500000 :=
  ⟨t.val * 10000 + p.val, by have hN : cfg0.N = 50 := N_0; have := t.isLt; have := p.isLt; omega⟩

/-! Each input window's block at a point, read at an entry, is the array's entry the block's rectangle names
    (block index × block size + the coordinate inside the block, axis by axis). -/

private theorem blk0_apply (c : Dev nD) (t : Fin cfg0.N) (p : Fin 10000) (k : Fin 64) :
    (iblk0 V c 0 t : Vec Ideal S10000x64 .f32) (ix2 p k) = a0 V c (ix2 (row t p) k) := by
  obtain ⟨e0, e1⟩ := idx0 t
  show V c main_v0 (((cfg0.win 0).blk t).view.emb (ix2 p k)) = V c main_v0 (ix2 (row t p) k)
  refine congrArg (V c main_v0) ?_
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

private theorem blk1_apply (c : Dev nD) (t : Fin cfg0.N) (p : Fin 10000) (k : Fin 64) :
    (iblk0 V c 1 t : Vec Ideal S10000x64 .f32) (ix2 p k) = a1 V c (ix2 (row t p) k) := by
  obtain ⟨e0, e1⟩ := idx1 t
  show V c main_v1 (((cfg0.win 1).blk t).view.emb (ix2 p k)) = V c main_v1 (ix2 (row t p) k)
  refine congrArg (V c main_v1) ?_
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega

private theorem blk2_apply (c : Dev nD) (t : Fin cfg0.N) (p : Fin 10000) (k : Fin 32) :
    (iblk0 V c 2 t : Vec Ideal S10000x32 .f32) (ix2 p k) = a2 V c (ix2 (row t p) k) := by
  obtain ⟨e0, e1⟩ := idx2 t
  show V c main_arg1 (((cfg0.win 2).blk t).view.emb (ix2 p k)) = V c main_arg1 (ix2 (row t p) k)
  refine congrArg (V c main_arg1) ?_
  funext a; apply Fin.ext
  match a with
  | ⟨0, _⟩ => show win0_2.index t (0 : Fin 2) * 10000 + 1 * p.val = t.val * 10000 + p.val; omega
  | ⟨1, _⟩ => show win0_2.index t (1 : Fin 2) * 32 + 1 * k.val = k.val; omega

private theorem blk3_apply (c : Dev nD) (t : Fin cfg0.N) (k : Fin 64) (q : Fin 64) :
    (iblk0 V c 3 t : Vec Ideal S64x64 .bf16) (ix2 k q) = a3 V c (ix2 k q) := by
  obtain ⟨e0, e1⟩ := idx3 t
  show V c main_v4 (((cfg0.win 3).blk t).view.emb (ix2 k q)) = V c main_v4 (ix2 k q)
  refine congrArg (V c main_v4) ?_
  funext a; apply Fin.ext
  match a with
  | ⟨0, _⟩ => show win0_3.index t (0 : Fin 2) * 64 + 1 * k.val = k.val; omega
  | ⟨1, _⟩ => show win0_3.index t (1 : Fin 2) * 64 + 1 * q.val = q.val; omega

private theorem blk4_apply (c : Dev nD) (t : Fin cfg0.N) (k : Fin 64) (q : Fin 64) :
    (iblk0 V c 4 t : Vec Ideal S64x64 .bf16) (ix2 k q) = a4 V c (ix2 k q) := by
  obtain ⟨e0, e1⟩ := idx4 t
  show V c main_v6 (((cfg0.win 4).blk t).view.emb (ix2 k q)) = V c main_v6 (ix2 k q)
  refine congrArg (V c main_v6) ?_
  funext a; apply Fin.ext
  match a with
  | ⟨0, _⟩ => show win0_4.index t (0 : Fin 2) * 64 + 1 * k.val = k.val; omega
  | ⟨1, _⟩ => show win0_4.index t (1 : Fin 2) * 64 + 1 * q.val = q.val; omega

private theorem blk5_apply (c : Dev nD) (t : Fin cfg0.N) (k : Fin 32) (q : Fin 64) :
    (iblk0 V c 5 t : Vec Ideal S32x64 .bf16) (ix2 k q) = a5 V c (ix2 k q) := by
  obtain ⟨e0, e1⟩ := idx5 t
  show V c main_v8 (((cfg0.win 5).blk t).view.emb (ix2 k q)) = V c main_v8 (ix2 k q)
  refine congrArg (V c main_v8) ?_
  funext a; apply Fin.ext
  match a with
  | ⟨0, _⟩ => show win0_5.index t (0 : Fin 2) * 32 + 1 * k.val = k.val; omega
  | ⟨1, _⟩ => show win0_5.index t (1 : Fin 2) * 64 + 1 * q.val = q.val; omega

/-- What point t writes back is block t of the message table of the six arrays. -/
private theorem flushed_eq (c : Dev nD) (t : Fin cfg0.N) :
    (dat0 (F := Ideal) V c).flushed 6 t
      = ((cfg0.win 6).blk t).view.read (Elt Ideal) (msgTab (a0 V c) (a1 V c) (a2 V c) (a3 V c) (a4 V c) (a5 V c)) := by
  show (cfg0.win 6).cut (grid0.coords t) ((dat0 V c).after 6 t) = _
  rw [after0_6]
  obtain ⟨e0, e1⟩ := idx6 t
  funext j
  obtain ⟨p, q, rfl⟩ : ∃ (p : Fin 10000) (q : Fin 64), j = ix2 p q := ⟨j 0, j 1, eq_ix2 j⟩
  show out0_6 (iblk0 V c 0 t) (iblk0 V c 1 t) (iblk0 V c 2 t) (iblk0 V c 3 t) (iblk0 V c 4 t) (iblk0 V c 5 t) (ix2 p q) = _
  have hr : ((cfg0.win 6).blk t).view.read (Elt Ideal) (msgTab (a0 V c) (a1 V c) (a2 V c) (a3 V c) (a4 V c) (a5 V c)) (ix2 p q)
      = msgTab (a0 V c) (a1 V c) (a2 V c) (a3 V c) (a4 V c) (a5 V c) (ix2 (row t p) q) := by
    show msgTab (a0 V c) (a1 V c) (a2 V c) (a3 V c) (a4 V c) (a5 V c) (((cfg0.win 6).blk t).view.emb (ix2 p q)) = _
    refine congrArg (msgTab (a0 V c) (a1 V c) (a2 V c) (a3 V c) (a4 V c) (a5 V c)) ?_
    funext a; apply Fin.ext
    match a with
    | ⟨0, _⟩ => show win0_6.index t (0 : Fin 2) * 10000 + 1 * p.val = t.val * 10000 + p.val; omega
    | ⟨1, _⟩ => show win0_6.index t (1 : Fin 2) * 64 + 1 * q.val = q.val; omega
  refine (((out_apply (iblk0 V c 0 t) (iblk0 V c 1 t) (iblk0 V c 2 t) (iblk0 V c 3 t) (iblk0 V c 4 t) (iblk0 V c 5 t) p q).trans (congrArg lk ?_)).trans
    (msgTab_ix2 (a0 V c) (a1 V c) (a2 V c) (a3 V c) (a4 V c) (a5 V c) (row t p) q).symm).trans hr.symm
  refine congrArg₂ (· + ·) (congrArg₂ (· + ·) ?_ ?_) ?_
  · exact Finset.sum_congr rfl fun k _ => congrArg₂ (· * ·) (blk0_apply V c t p k) (blk3_apply V c t k q)
  · exact Finset.sum_congr rfl fun k _ => congrArg₂ (· * ·) (blk1_apply V c t p k) (blk4_apply V c t k q)
  · exact Finset.sum_congr rfl fun k _ => congrArg₂ (· * ·) (blk2_apply V c t p k) (blk5_apply V c t k q)

/-- An entry of the output array is in point t's block iff each coordinate is in the block's range on its axis. -/
private theorem mem_blk (t : Fin cfg0.N) (i : S500000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v9).slice (win0_6.rect t)).set ↔ _
  rw [View.set_slice_whole, Rect.mem_set_unit]
  exact Iff.rfl

/-- Every entry is in some point's block: row r is in the block of point r / 10000. -/
private theorem cover (i : S500000x64.Idx) :
    ∃ t : Fin cfg0.N, (cfg0.win 6).flush t = true ∧ i ∈ ((cfg0.win 6).blk t).view.set := by
  have hN : cfg0.N = 50 := N_0
  have hi0 : (i 0).val < 500000 := (i 0).isLt
  have hi1 : (i 1).val < 64 := (i 1).isLt
  obtain ⟨t, ht⟩ : ∃ t : Fin cfg0.N, t.val = (i 0).val / 10000 := ⟨⟨(i 0).val / 10000, by rw [hN]; omega⟩, rfl⟩
  obtain ⟨e0, e1⟩ := idx6 t
  refine ⟨t, flush0_6 t, ?_⟩
  rw [mem_blk]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 64 ≤ (i 1).val ∧ (i 1).val < win0_6.index t (1 : Fin 2) * 64 + 64
    omega

/-- After the launch the output array is the message table of the six input arrays as the launch found them. -/
theorem region0_value (c : Dev nD) :
    ((dat0 (F := Ideal) V c).arrAt 6 cfg0.N : Tab 500000 64)
      = msgTab (V c main_v0) (V c main_v1) (V c main_arg1) (V c main_v4) (V c main_v6) (V c main_v8) :=
  (dat0 (F := Ideal) V c).arrAt_eq_of_cover 6 (msgTab (a0 V c) (a1 V c) (a2 V c) (a3 V c) (a4 V c) (a5 V c)) (fun t _ => flushed_eq V c t) cover

end Cert.KernelIdeal.GnnK

end
-- ==== Proof.KRegionMsg1.lean ====
import proofs.«407627_j49795850829975_3_alg».proof.Proof.Gen.KernelIdeal.Frame
import proofs.«407627_j49795850829975_3_alg».proof.Proof.Spec
import Idealize.ShloMosaic.Lib.Pipeline.Value

/-! # The second message launch (the two gathered tables swapped): the array its fifty blocks leave -/

set_option maxRecDepth 16384

noncomputable section

open scoped BigOperators

namespace Cert.KernelIdeal.GnnK

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gnn

variable (V : (c : Dev nD) → (b : Ref sig .tc) → Buf (Elt Ideal) ((c : Thread nD τ).loc b))

/-! ## The two contractions' operand indices, coordinate by coordinate

Both contract the left operand's columns with the right operand's rows: at output entry j and contraction position k
the left operand is read at (j 0, k) and the right one at (k, j 1). -/

private theorem lhs64_0 (j : S10000x64.Idx) (k : dot_S10000x64_S64x64_S10000x64_1_0_0_1_n_n.contr.Idx) :
    (dot_S10000x64_S64x64_S10000x64_1_0_0_1_n_n.lhsIdx j k 0 : ℕ) = j 0 := by
  simp [DotDims.lhsIdx, dot_S10000x64_S64x64_S10000x64_1_0_0_1_n_n]; rfl
private theorem lhs64_1 (j : S10000x64.Idx) (k : dot_S10000x64_S64x64_S10000x64_1_0_0_1_n_n.contr.Idx) :
    (dot_S10000x64_S64x64_S10000x64_1_0_0_1_n_n.lhsIdx j k 1 : ℕ) = k ⟨0, by decide⟩ := by
  simp [DotDims.lhsIdx, dot_S10000x64_S64x64_S10000x64_1_0_0_1_n_n]; rfl
private theorem rhs64_0 (j : S10000x64.Idx) (k : dot_S10000x64_S64x64_S10000x64_1_0_0_1_n_n.contr.Idx) :
    (dot_S10000x64_S64x64_S10000x64_1_0_0_1_n_n.rhsIdx j k 0 : ℕ) = k ⟨0, by decide⟩ := by
  simp [DotDims.rhsIdx, dot_S10000x64_S64x64_S10000x64_1_0_0_1_n_n]; rfl
private theorem rhs64_1 (j : S10000x64.Idx) (k : dot_S10000x64_S64x64_S10000x64_1_0_0_1_n_n.contr.Idx) :
    (dot_S10000x64_S64x64_S10000x64_1_0_0_1_n_n.rhsIdx j k 1 : ℕ) = j 1 := by
  simp [DotDims.rhsIdx, dot_S10000x64_S64x64_S10000x64_1_0_0_1_n_n]; rfl

private theorem lhs32_0 (j : S10000x64.Idx) (k : dot_S10000x32_S32x64_S10000x64_1_0_0_1_n_n.contr.Idx) :
    (dot_S10000x32_S32x64_S10000x64_1_0_0_1_n_n.lhsIdx j k 0 : ℕ) = j 0 := by
  simp [DotDims.lhsIdx, dot_S10000x32_S32x64_S10000x64_1_0_0_1_n_n]; rfl
private theorem lhs32_1 (j : S10000x64.Idx) (k : dot_S10000x32_S32x64_S10000x64_1_0_0_1_n_n.contr.Idx) :
    (dot_S10000x32_S32x64_S10000x64_1_0_0_1_n_n.lhsIdx j k 1 : ℕ) = k ⟨0, by decide⟩ := by
  simp [DotDims.lhsIdx, dot_S10000x32_S32x64_S10000x64_1_0_0_1_n_n]; rfl
private theorem rhs32_0 (j : S10000x64.Idx) (k : dot_S10000x32_S32x64_S10000x64_1_0_0_1_n_n.contr.Idx) :
    (dot_S10000x32_S32x64_S10000x64_1_0_0_1_n_n.rhsIdx j k 0 : ℕ) = k ⟨0, by decide⟩ := by
  simp [DotDims.rhsIdx, dot_S10000x32_S32x64_S10000x64_1_0_0_1_n_n]; rfl
private theorem rhs32_1 (j : S10000x64.Idx) (k : dot_S10000x32_S32x64_S10000x64_1_0_0_1_n_n.contr.Idx) :
    (dot_S10000x32_S32x64_S10000x64_1_0_0_1_n_n.rhsIdx j k 1 : ℕ) = j 1 := by
  simp [DotDims.rhsIdx, dot_S10000x32_S32x64_S10000x64_1_0_0_1_n_n]; rfl

/-! ## A block product into the zero accumulator, read at an entry -/

/-- A 10000×64 block times a 64×64 block: entry (p, q) is the sum over k of A (p, k) · B (k, q). -/
private theorem mm64_apply (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  show FloatOps.matmul dot_S10000x64_S64x64_S10000x64_1_0_0_1_n_n none A B _ (ix2 p q) = _
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs64_0 _ _
    | ⟨1, _⟩ => exact (lhs64_1 _ _).trans hk
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs64_0 _ _).trans hk
    | ⟨1, _⟩ => exact rhs64_1 _ _
  rw [hl, hr]

/-- A 10000×32 block times a 32×64 block: entry (p, q) is the sum over k of A (p, k) · B (k, q). -/
private theorem mm32_apply (A : FVec Ideal S10000x32 .bf16) (B : FVec Ideal S32x64 .bf16) (p : Fin 10000) (q : Fin 64) :
    matmul dot_S10000x32_S32x64_S10000x64_1_0_0_1_n_n none A B (constant (F := Ideal) S10000x64 .f32 0x00000000#32) (ix2 p q)
      = ∑ k : Fin 32, A (ix2 p k) * B (ix2 k q) := by
  show FloatOps.matmul dot_S10000x32_S32x64_S10000x64_1_0_0_1_n_n none A B _ (ix2 p q) = _
  rw [Ideal.matmul_constant_zero_apply,
    ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have hl : dot_S10000x32_S32x64_S10000x64_1_0_0_1_n_n.lhsIdx (ix2 p q)
      ((contrEquiv1 dot_S10000x32_S32x64_S10000x64_1_0_0_1_n_n 32 rfl rfl).symm k) = ix2 p k := by
    funext a; apply Fin.ext
    match a with
    | ⟨0, _⟩ => exact lhs32_0 _ _
    | ⟨1, _⟩ => exact (lhs32_1 _ _).trans hk
  have hr : dot_S10000x32_S32x64_S10000x64_1_0_0_1_n_n.rhsIdx (ix2 p q)
      ((contrEquiv1 dot_S10000x32_S32x64_S10000x64_1_0_0_1_n_n 32 rfl rfl).symm k) = ix2 k q := by
    funext a; apply Fin.ext
    match a with
    | ⟨0, _⟩ => exact (rhs32_0 _ _).trans hk
    | ⟨1, _⟩ => exact rhs32_1 _ _
  rw [hl, hr]

/-! ## What the body computes, at an entry -/

/-- Entry (p, q) of the body's one stored value: the rectifier of the three row-by-column sums, added in the body's
    order. The format changes are the identity on extended reals, the zero word denotes 0, and the rectifier is the
    select the body ends with. -/
private theorem pay_apply (x0 x1 : Vec Ideal S10000x64 .f32) (x2 : Vec Ideal S10000x32 .f32) (x3 x4 : Vec Ideal S64x64 .bf16)
    (x5 : Vec Ideal S32x64 .bf16) (p : Fin 10000) (q : Fin 64) :
    k1_pay1 (F := Ideal) x0 x1 x2 x3 x4 x5 (ix2 p q)
      = lk ((∑ k : Fin 64, x0 (ix2 p k) * x3 (ix2 k q) + ∑ k : Fin 64, x1 (ix2 p k) * x4 (ix2 k q))
          + ∑ k : Fin 32, x2 (ix2 p k) * x5 (ix2 k q)) := by
  unfold k1_pay1
  simp only [shapeCast_self]
  rw [select_apply, cmpf_apply, mulf_apply, broadcast_apply, broadcast_apply, addf_apply, addf_apply,
    mm64_apply, mm64_apply, mm32_apply]
  simp only [truncf_apply]
  unfold lk Cert.Gnn.slope
  show Scalar.select (Ideal.cmp .oge _ (Ideal.ofBits .f32 0x00000000#32)) _ (_ * Ideal.ofBits .f32 0x3C23D70A#32) = _
  rw [Ideal.ofBits_zero_f32]

private theorem hz : (![0, 0] : Fin 2 → Nat) = fun _ => 0 := funext fun a => by fin_cases a <;> rfl

/-- What the body leaves in the output block, at an entry: it loads its six blocks whole and stores one whole block. -/
private theorem out_apply (x0 x1 : Vec Ideal S10000x64 .f32) (x2 : Vec Ideal S10000x32 .f32) (x3 x4 : Vec Ideal S64x64 .bf16)
    (x5 : Vec Ideal S32x64 .bf16) (p : Fin 10000) (q : Fin 64) :
    out1_6 (F := Ideal) x0 x1 x2 x3 x4 x5 (ix2 p q)
      = lk ((∑ k : Fin 64, x0 (ix2 p k) * x3 (ix2 k q) + ∑ k : Fin 64, x1 (ix2 p k) * x4 (ix2 k q))
          + ∑ k : Fin 32, x2 (ix2 p k) * x5 (ix2 k q)) := by
  unfold out1_6
  rw [View.canon_unit_zero hz]
  simp only [View.ld_unit_zero (S := S10000x64) hz, View.ld_unit_zero (S := S10000x32) hz,
    View.ld_unit_zero (S := S64x64) hz, View.ld_unit_zero (S := S32x64) hz]
  exact pay_apply x0 x1 x2 x3 x4 x5 p q

/-! ## From blocks to the array -/

/-- The six input arrays as the launch finds them, at their table types. -/
private abbrev a0 (c : Dev nD) : Tab 500000 64 := V c main_v1
private abbrev a1 (c : Dev nD) : Tab 500000 64 := V c main_v0
private abbrev a2 (c : Dev nD) : Tab 500000 32 := V c main_arg1
private abbrev a3 (c : Dev nD) : Tab 64 64 := V c main_v4
private abbrev a4 (c : Dev nD) : Tab 64 64 := V c main_v6
private abbrev a5 (c : Dev nD) : Tab 32 64 := V c main_v8

/-- A message table at an entry. -/
private theorem msgTab_ix2 (A B : Tab 500000 64) (Ef : Tab 500000 32) (Ws Wd : Tab 64 64) (Wf : Tab 32 64)
    (e : Fin 500000) (o : Fin 64) :
    msgTab A B Ef Ws Wd Wf (ix2 e o)
      = lk ((∑ k : Fin 64, A (ix2 e k) * Ws (ix2 k o) + ∑ k : Fin 64, B (ix2 e k) * Wd (ix2 k o))
          + ∑ k : Fin 32, Ef (ix2 e k) * Wf (ix2 k o)) := rfl

/-! The block indices over the grid: the three row windows and the output move with the point, ten thousand rows at a
    time; the three weight windows stay on their one block. -/

private theorem idx0 : ∀ t : Fin cfg1.N, win1_0.index t (0 : Fin 2) = t.val ∧ win1_0.index t (1 : Fin 2) = 0 :=
  (by decide +kernel : ∀ t : Fin grid1.N, _)
private theorem idx1 : ∀ t : Fin cfg1.N, win1_1.index t (0 : Fin 2) = t.val ∧ win1_1.index t (1 : Fin 2) = 0 :=
  (by decide +kernel : ∀ t : Fin grid1.N, _)
private theorem idx2 : ∀ t : Fin cfg1.N, win1_2.index t (0 : Fin 2) = t.val ∧ win1_2.index t (1 : Fin 2) = 0 :=
  (by decide +kernel : ∀ t : Fin grid1.N, _)
private theorem idx3 : ∀ t : Fin cfg1.N, win1_3.index t (0 : Fin 2) = 0 ∧ win1_3.index t (1 : Fin 2) = 0 :=
  (by decide +kernel : ∀ t : Fin grid1.N, _)
private theorem idx4 : ∀ t : Fin cfg1.N, win1_4.index t (0 : Fin 2) = 0 ∧ win1_4.index t (1 : Fin 2) = 0 :=
  (by decide +kernel : ∀ t : Fin grid1.N, _)
private theorem idx5 : ∀ t : Fin cfg1.N, win1_5.index t (0 : Fin 2) = 0 ∧ win1_5.index t (1 : Fin 2) = 0 :=
  (by decide +kernel : ∀ t : Fin grid1.N, _)
private theorem idx6 : ∀ t : Fin cfg1.N, win1_6.index t (0 : Fin 2) = t.val ∧ win1_6.index t (1 : Fin 2) = 0 :=
  (by decide +kernel : ∀ t : Fin grid1.N, _)

/-- The row of the edge tables that row p of point t's block is: 10000 t + p. -/
private def row (t : Fin cfg1.N) (p : Fin 10000) : Fin 500000 :=
  ⟨t.val * 10000 + p.val, by have hN : cfg1.N = 50 := N_1; have := t.isLt; have := p.isLt; omega⟩

/-! Each input window's block at a point, read at an entry, is the array's entry the block's rectangle names
    (block index × block size + the coordinate inside the block, axis by axis). -/

private theorem blk0_apply (c : Dev nD) (t : Fin cfg1.N) (p : Fin 10000) (k : Fin 64) :
    (iblk1 V c 0 t : Vec Ideal S10000x64 .f32) (ix2 p k) = a0 V c (ix2 (row t p) k) := by
  obtain ⟨e0, e1⟩ := idx0 t
  show V c main_v1 (((cfg1.win 0).blk t).view.emb (ix2 p k)) = V c main_v1 (ix2 (row t p) k)
  refine congrArg (V c main_v1) ?_
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

private theorem blk1_apply (c : Dev nD) (t : Fin cfg1.N) (p : Fin 10000) (k : Fin 64) :
    (iblk1 V c 1 t : Vec Ideal S10000x64 .f32) (ix2 p k) = a1 V c (ix2 (row t p) k) := by
  obtain ⟨e0, e1⟩ := idx1 t
  show V c main_v0 (((cfg1.win 1).blk t).view.emb (ix2 p k)) = V c main_v0 (ix2 (row t p) k)
  refine congrArg (V c main_v0) ?_
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega

private theorem blk2_apply (c : Dev nD) (t : Fin cfg1.N) (p : Fin 10000) (k : Fin 32) :
    (iblk1 V c 2 t : Vec Ideal S10000x32 .f32) (ix2 p k) = a2 V c (ix2 (row t p) k) := by
  obtain ⟨e0, e1⟩ := idx2 t
  show V c main_arg1 (((cfg1.win 2).blk t).view.emb (ix2 p k)) = V c main_arg1 (ix2 (row t p) k)
  refine congrArg (V c main_arg1) ?_
  funext a; apply Fin.ext
  match a with
  | ⟨0, _⟩ => show win1_2.index t (0 : Fin 2) * 10000 + 1 * p.val = t.val * 10000 + p.val; omega
  | ⟨1, _⟩ => show win1_2.index t (1 : Fin 2) * 32 + 1 * k.val = k.val; omega

private theorem blk3_apply (c : Dev nD) (t : Fin cfg1.N) (k : Fin 64) (q : Fin 64) :
    (iblk1 V c 3 t : Vec Ideal S64x64 .bf16) (ix2 k q) = a3 V c (ix2 k q) := by
  obtain ⟨e0, e1⟩ := idx3 t
  show V c main_v4 (((cfg1.win 3).blk t).view.emb (ix2 k q)) = V c main_v4 (ix2 k q)
  refine congrArg (V c main_v4) ?_
  funext a; apply Fin.ext
  match a with
  | ⟨0, _⟩ => show win1_3.index t (0 : Fin 2) * 64 + 1 * k.val = k.val; omega
  | ⟨1, _⟩ => show win1_3.index t (1 : Fin 2) * 64 + 1 * q.val = q.val; omega

private theorem blk4_apply (c : Dev nD) (t : Fin cfg1.N) (k : Fin 64) (q : Fin 64) :
    (iblk1 V c 4 t : Vec Ideal S64x64 .bf16) (ix2 k q) = a4 V c (ix2 k q) := by
  obtain ⟨e0, e1⟩ := idx4 t
  show V c main_v6 (((cfg1.win 4).blk t).view.emb (ix2 k q)) = V c main_v6 (ix2 k q)
  refine congrArg (V c main_v6) ?_
  funext a; apply Fin.ext
  match a with
  | ⟨0, _⟩ => show win1_4.index t (0 : Fin 2) * 64 + 1 * k.val = k.val; omega
  | ⟨1, _⟩ => show win1_4.index t (1 : Fin 2) * 64 + 1 * q.val = q.val; omega

private theorem blk5_apply (c : Dev nD) (t : Fin cfg1.N) (k : Fin 32) (q : Fin 64) :
    (iblk1 V c 5 t : Vec Ideal S32x64 .bf16) (ix2 k q) = a5 V c (ix2 k q) := by
  obtain ⟨e0, e1⟩ := idx5 t
  show V c main_v8 (((cfg1.win 5).blk t).view.emb (ix2 k q)) = V c main_v8 (ix2 k q)
  refine congrArg (V c main_v8) ?_
  funext a; apply Fin.ext
  match a with
  | ⟨0, _⟩ => show win1_5.index t (0 : Fin 2) * 32 + 1 * k.val = k.val; omega
  | ⟨1, _⟩ => show win1_5.index t (1 : Fin 2) * 64 + 1 * q.val = q.val; omega

/-- What point t writes back is block t of the message table of the six arrays. -/
private theorem flushed_eq (c : Dev nD) (t : Fin cfg1.N) :
    (dat1 (F := Ideal) V c).flushed 6 t
      = ((cfg1.win 6).blk t).view.read (Elt Ideal) (msgTab (a0 V c) (a1 V c) (a2 V c) (a3 V c) (a4 V c) (a5 V c)) := by
  show (cfg1.win 6).cut (grid1.coords t) ((dat1 V c).after 6 t) = _
  rw [after1_6]
  obtain ⟨e0, e1⟩ := idx6 t
  funext j
  obtain ⟨p, q, rfl⟩ : ∃ (p : Fin 10000) (q : Fin 64), j = ix2 p q := ⟨j 0, j 1, eq_ix2 j⟩
  show out1_6 (iblk1 V c 0 t) (iblk1 V c 1 t) (iblk1 V c 2 t) (iblk1 V c 3 t) (iblk1 V c 4 t) (iblk1 V c 5 t) (ix2 p q) = _
  have hr : ((cfg1.win 6).blk t).view.read (Elt Ideal) (msgTab (a0 V c) (a1 V c) (a2 V c) (a3 V c) (a4 V c) (a5 V c)) (ix2 p q)
      = msgTab (a0 V c) (a1 V c) (a2 V c) (a3 V c) (a4 V c) (a5 V c) (ix2 (row t p) q) := by
    show msgTab (a0 V c) (a1 V c) (a2 V c) (a3 V c) (a4 V c) (a5 V c) (((cfg1.win 6).blk t).view.emb (ix2 p q)) = _
    refine congrArg (msgTab (a0 V c) (a1 V c) (a2 V c) (a3 V c) (a4 V c) (a5 V c)) ?_
    funext a; apply Fin.ext
    match a with
    | ⟨0, _⟩ => show win1_6.index t (0 : Fin 2) * 10000 + 1 * p.val = t.val * 10000 + p.val; omega
    | ⟨1, _⟩ => show win1_6.index t (1 : Fin 2) * 64 + 1 * q.val = q.val; omega
  refine (((out_apply (iblk1 V c 0 t) (iblk1 V c 1 t) (iblk1 V c 2 t) (iblk1 V c 3 t) (iblk1 V c 4 t) (iblk1 V c 5 t) p q).trans (congrArg lk ?_)).trans
    (msgTab_ix2 (a0 V c) (a1 V c) (a2 V c) (a3 V c) (a4 V c) (a5 V c) (row t p) q).symm).trans hr.symm
  refine congrArg₂ (· + ·) (congrArg₂ (· + ·) ?_ ?_) ?_
  · exact Finset.sum_congr rfl fun k _ => congrArg₂ (· * ·) (blk0_apply V c t p k) (blk3_apply V c t k q)
  · exact Finset.sum_congr rfl fun k _ => congrArg₂ (· * ·) (blk1_apply V c t p k) (blk4_apply V c t k q)
  · exact Finset.sum_congr rfl fun k _ => congrArg₂ (· * ·) (blk2_apply V c t p k) (blk5_apply V c t k q)

/-- An entry of the output array is in point t's block iff each coordinate is in the block's range on its axis. -/
private theorem mem_blk (t : Fin cfg1.N) (i : S500000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v10).slice (win1_6.rect t)).set ↔ _
  rw [View.set_slice_whole, Rect.mem_set_unit]
  exact Iff.rfl

/-- Every entry is in some point's block: row r is in the block of point r / 10000. -/
private theorem cover (i : S500000x64.Idx) :
    ∃ t : Fin cfg1.N, (cfg1.win 6).flush t = true ∧ i ∈ ((cfg1.win 6).blk t).view.set := by
  have hN : cfg1.N = 50 := N_1
  have hi0 : (i 0).val < 500000 := (i 0).isLt
  have hi1 : (i 1).val < 64 := (i 1).isLt
  obtain ⟨t, ht⟩ : ∃ t : Fin cfg1.N, t.val = (i 0).val / 10000 := ⟨⟨(i 0).val / 10000, by rw [hN]; omega⟩, rfl⟩
  obtain ⟨e0, e1⟩ := idx6 t
  refine ⟨t, flush1_6 t, ?_⟩
  rw [mem_blk]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 64 ≤ (i 1).val ∧ (i 1).val < win1_6.index t (1 : Fin 2) * 64 + 64
    omega

/-- After the launch the output array is the message table of the six input arrays as the launch found them. -/
theorem region1_value (c : Dev nD) :
    ((dat1 (F := Ideal) V c).arrAt 6 cfg1.N : Tab 500000 64)
      = msgTab (V c main_v1) (V c main_v0) (V c main_arg1) (V c main_v4) (V c main_v6) (V c main_v8) :=
  (dat1 (F := Ideal) V c).arrAt_eq_of_cover 6 (msgTab (a0 V c) (a1 V c) (a2 V c) (a3 V c) (a4 V c) (a5 V c)) (fun t _ => flushed_eq V c t) cover

end Cert.KernelIdeal.GnnK

end
-- ==== Proof.KRegionFin.lean ====
import proofs.«407627_j49795850829975_3_alg».proof.Proof.Gen.KernelIdeal.Frame
import proofs.«407627_j49795850829975_3_alg».proof.Proof.Spec
import Idealize.ShloMosaic.Lib.Pipeline.Value

/-! # The node-update launch: the array its ten blocks leave, as one table of the entry contents -/

set_option maxRecDepth 16384

noncomputable section

open scoped BigOperators

namespace Cert.KernelIdeal.GnnK

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gnn

variable (V : (c : Dev nD) → (b : Ref sig .tc) → Buf (Elt Ideal) ((c : Thread nD τ).loc b))

namespace RegionFin

/-- The block's and the weight's offsets are zero on both axes. -/
theorem hz : (![0, 0] : Fin 2 → Nat) = fun _ => 0 := funext fun a => by fin_cases a <;> rfl

/-! ## The contraction's operand indices, axis by axis -/

theorem lhs_ax0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem lhs_ax1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem rhs_ax0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem rhs_ax1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A product of a block of rows with a weight, accumulated from zero, read at row p and column q: the sum over the
    64 contracted coordinates. -/
theorem mm_apply (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs_ax0 _ _
      | ⟨1, _⟩ => exact (lhs_ax1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhs_ax0 _ _).trans hk
      | ⟨1, _⟩ => exact rhs_ax1 _ _)
  rw [el, er]

/-- The body's arithmetic at row p and column q of a block: the rectifier of the two contractions added. -/
theorem pay_apply (x0 x1 : Vec Ideal S10000x64 .f32) (x2 x3 : Vec Ideal S64x64 .bf16) (p : Fin 10000) (q : Fin 64) :
    k2_pay1 x0 x1 x2 x3 (ix2 p q)
      = lk (∑ k : Fin 64, x0 (ix2 p k) * x2 (ix2 k q) + ∑ k : Fin 64, x1 (ix2 p k) * x3 (ix2 k q)) := by
  unfold k2_pay1
  simp only [select_apply, cmpf_apply, mulf_apply, addf_apply, broadcast_apply, shapeCast_self, mm_apply, truncf_apply]
  unfold Cert.Gnn.lk Cert.Gnn.slope
  simp only [Ideal.cmpf_def]
  have h0 : (FloatOps.ofBits (F := Ideal) .f32 0x00000000#32) = 0 := Ideal.ofBits_zero_f32
  rw [h0]
  rfl

/-! ## The body's result at a row and a column of a block -/

/-- What the body leaves at row j₀ and column j₁ of its output block is the node update, at the array index i, of any four
    tables that agree with the four input blocks: on row j₀ of the block against row i₀ of the table for the two row
    blocks, everywhere for the two weights. -/
theorem out_apply (x0 x1 : Vec Ideal S10000x64 .f32) (x2 x3 : Vec Ideal S64x64 .bf16) (X R : Tab 100000 64)
    (Wa Wb : Tab 64 64) (j : S10000x64.Idx) (i : S100000x64.Idx) (hcol : (i 1).val = (j 1).val)
    (h0 : ∀ k : Fin 64, x0 (ix2 (n0 := 10000) (n1 := 64) (j 0) k) = X (ix2 (n0 := 100000) (n1 := 64) (i 0) k))
    (h1 : ∀ k : Fin 64, x1 (ix2 (n0 := 10000) (n1 := 64) (j 0) k) = R (ix2 (n0 := 100000) (n1 := 64) (i 0) k))
    (h2 : ∀ k o : Fin 64, x2 (ix2 k o) = Wa (ix2 k o)) (h3 : ∀ k o : Fin 64, x3 (ix2 k o) = Wb (ix2 k o)) :
    out2_4 x0 x1 x2 x3 j = finTab X R Wa Wb i := by
  obtain ⟨p, q, rfl⟩ : ∃ (p : Fin 10000) (q : Fin 64), j = ix2 p q := ⟨j 0, j 1, eq_ix2 j⟩
  obtain ⟨n, o, rfl⟩ : ∃ (n : Fin 100000) (o : Fin 64), i = ix2 n o := ⟨i 0, i 1, eq_ix2 i⟩
  obtain rfl : o = q := Fin.ext hcol
  have h0' : ∀ k : Fin 64, x0 (ix2 p k) = X (ix2 n k) := h0
  have h1' : ∀ k : Fin 64, x1 (ix2 p k) = R (ix2 n k) := h1
  unfold out2_4
  rw [View.canon_unit_zero hz]
  simp only [View.ld_unit_zero (S := S10000x64) hz, View.ld_unit_zero (S := S64x64) hz]
  rw [pay_apply]
  unfold Cert.Gnn.finTab
  rw [tab2_ix2]
  simp only [h0', h1', h2, h3]

/-! ## From the ten blocks to the array -/

/-- The node features, the arrived sums and the two weights as the launch finds them. -/
abbrev xArr (c : Dev nD) : Tab 100000 64 := V c main_arg0
abbrev rArr (c : Dev nD) : Tab 100000 64 := V c main_v17
abbrev waArr (c : Dev nD) : Tab 64 64 := V c main_v20
abbrev wbArr (c : Dev nD) : Tab 64 64 := V c main_v22

/-- Where the windows' blocks sit at each of the ten points: the three row windows at block row t, the two weights at
    block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ t.val < 10 :=
  (by decide +kernel : ∀ t : Fin grid2.N, _)

/-- Row p of the feature block at point t is row 10000 t + p of the feature table. -/
theorem xblk_apply (c : Dev nD) (t : Fin cfg2.N) (p : Fin 10000) (k : Fin 64) (n : Fin 100000)
    (hn : n.val = t.val * 10000 + p.val) :
    (iblk2 V c 0 t : Vec Ideal S10000x64 .f32) (ix2 p k) = xArr V c (ix2 n k) := by
  obtain ⟨e0, e1, -⟩ := idx_facts t
  unfold iblk2
  rw [View.read_apply]
  show xArr V c (((cfg2.win 0).blk t).view.emb (ix2 p k)) = xArr V c (ix2 n k)
  refine congrArg (xArr V c) (funext fun a => Fin.ext ?_)
  match a with
  | ⟨0, _⟩ => show win2_0.index t (0 : Fin 2) * 10000 + 1 * p.val = n.val; omega
  | ⟨1, _⟩ => show win2_0.index t (1 : Fin 2) * 64 + 1 * k.val = k.val; omega

/-- Row p of the block of arrived sums at point t is row 10000 t + p of their table. -/
theorem rblk_apply (c : Dev nD) (t : Fin cfg2.N) (p : Fin 10000) (k : Fin 64) (n : Fin 100000)
    (hn : n.val = t.val * 10000 + p.val) :
    (iblk2 V c 1 t : Vec Ideal S10000x64 .f32) (ix2 p k) = rArr V c (ix2 n k) := by
  obtain ⟨-, -, e2, e3, -⟩ := idx_facts t
  unfold iblk2
  rw [View.read_apply]
  show rArr V c (((cfg2.win 1).blk t).view.emb (ix2 p k)) = rArr V c (ix2 n k)
  refine congrArg (rArr V c) (funext fun a => Fin.ext ?_)
  match a with
  | ⟨0, _⟩ => show win2_1.index t (0 : Fin 2) * 10000 + 1 * p.val = n.val; omega
  | ⟨1, _⟩ => show win2_1.index t (1 : Fin 2) * 64 + 1 * k.val = k.val; omega

/-- The first weight's block is the whole weight at every point. -/
theorem wablk_apply (c : Dev nD) (t : Fin cfg2.N) (k o : Fin 64) :
    (iblk2 V c 2 t : Vec Ideal S64x64 .bf16) (ix2 k o) = waArr V c (ix2 k o) := by
  obtain ⟨-, -, -, -, e4, e5, -⟩ := idx_facts t
  unfold iblk2
  rw [View.read_apply]
  show waArr V c (((cfg2.win 2).blk t).view.emb (ix2 k o)) = waArr V c (ix2 k o)
  refine congrArg (waArr V c) (funext fun a => Fin.ext ?_)
  match a with
  | ⟨0, _⟩ => show win2_2.index t (0 : Fin 2) * 64 + 1 * k.val = k.val; omega
  | ⟨1, _⟩ => show win2_2.index t (1 : Fin 2) * 64 + 1 * o.val = o.val; omega

/-- The second weight's block is the whole weight at every point. -/
theorem wbblk_apply (c : Dev nD) (t : Fin cfg2.N) (k o : Fin 64) :
    (iblk2 V c 3 t : Vec Ideal S64x64 .bf16) (ix2 k o) = wbArr V c (ix2 k o) := by
  obtain ⟨-, -, -, -, -, -, e6, e7, -⟩ := idx_facts t
  unfold iblk2
  rw [View.read_apply]
  show wbArr V c (((cfg2.win 3).blk t).view.emb (ix2 k o)) = wbArr V c (ix2 k o)
  refine congrArg (wbArr V c) (funext fun a => Fin.ext ?_)
  match a with
  | ⟨0, _⟩ => show win2_3.index t (0 : Fin 2) * 64 + 1 * k.val = k.val; omega
  | ⟨1, _⟩ => show win2_3.index t (1 : Fin 2) * 64 + 1 * o.val = o.val; omega

/-- What point t writes back is block t of the node update of the four tables. -/
theorem flushed_eq (c : Dev nD) (t : Fin cfg2.N) :
    (dat2 (F := Ideal) V c).flushed 4 t
      = ((cfg2.win 4).blk t).view.read (Elt Ideal) (finTab (xArr V c) (rArr V c) (waArr V c) (wbArr V c)) := by
  show (cfg2.win 4).cut (grid2.coords t) ((dat2 (F := Ideal) V c).after 4 t) = _
  rw [after2_4]
  obtain ⟨-, -, -, -, -, -, -, -, e8, e9, -⟩ := idx_facts t
  funext j
  show out2_4 (iblk2 V c 0 t) (iblk2 V c 1 t) (iblk2 V c 2 t) (iblk2 V c 3 t) j
    = finTab (xArr V c) (rArr V c) (waArr V c) (wbArr V c) (((cfg2.win 4).blk t).view.emb j)
  have hrow : ((((cfg2.win 4).blk t).view.emb j) 0).val = t.val * 10000 + (j 0).val := by
    show win2_4.index t (0 : Fin 2) * 10000 + 1 * (j 0).val = t.val * 10000 + (j 0).val
    omega
  refine out_apply (iblk2 V c 0 t) (iblk2 V c 1 t) (iblk2 V c 2 t) (iblk2 V c 3 t) (xArr V c) (rArr V c) (waArr V c)
    (wbArr V c) j (((cfg2.win 4).blk t).view.emb j) ?_ (fun k => xblk_apply V c t _ k _ hrow)
    (fun k => rblk_apply V c t _ k _ hrow) (wablk_apply V c t) (wbblk_apply V c t)
  show win2_4.index t (1 : Fin 2) * 64 + 1 * (j 1).val = (j 1).val
  omega

/-- An index of the output array is in point t's block iff each coordinate is in the block's range on its axis. -/
theorem mem_blk (t : Fin cfg2.N) (i : S100000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v23).slice (win2_4.rect t)).set ↔ _
  rw [View.set_slice_whole, Rect.mem_set_unit]
  exact Iff.rfl

/-- Row r of the output array is in the block of point r / 10000. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : grid2.N = 10 := N_2
  obtain ⟨t, ht⟩ : ∃ t : Fin cfg2.N, t.val = (i 0).val / 10000 :=
    ⟨⟨(i 0).val / 10000, by show (i 0).val / 10000 < grid2.N; rw [hN]; omega⟩, rfl⟩
  obtain ⟨-, -, -, -, -, -, -, -, e8, e9, -⟩ := idx_facts t
  refine ⟨t, flush2_4 t, ?_⟩
  rw [mem_blk]
  intro a
  match a with
  | ⟨0, _⟩ =>
    show win2_4.index t (0 : Fin 2) * 10000 ≤ (i 0).val ∧ (i 0).val < win2_4.index t (0 : Fin 2) * 10000 + 10000
    omega
  | ⟨1, _⟩ =>
    show win2_4.index t (1 : Fin 2) * 64 ≤ (i 1).val ∧ (i 1).val < win2_4.index t (1 : Fin 2) * 64 + 64
    omega

end RegionFin

/-- After the launch the output array is the node update of the four input arrays as the launch found them. -/
theorem region2_value (c : Dev nD) :
    ((dat2 (F := Ideal) V c).arrAt 4 cfg2.N : Tab 100000 64)
      = finTab (V c main_arg0) (V c main_v17) (V c main_v20) (V c main_v22) :=
  (dat2 (F := Ideal) V c).arrAt_eq_of_cover 4 (finTab (V c main_arg0) (V c main_v17) (V c main_v20) (V c main_v22))
    (fun t _ => RegionFin.flushed_eq V c t) (fun i => RegionFin.cover i)

end Cert.KernelIdeal.GnnK

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

/-!
# Row-wise scatter-add and row gather, read at an index

Two index-level reads of the host operations on a rank-2 table whose ROWS are addressed by an [E × 1] column of
start indices.

* A scatter with an additive body whose updates are whole rows: update row e is added into the operand row named
  by the e-th start index, read as a signed integer; a row whose start index is negative or past the last row is
  dropped. At (n, k) the result is the operand plus the sum, over the update rows whose start index is n, of
  their k-th entry.
* A gather of whole rows: result row e is the operand row named by the e-th start index, read signed and clamped
  into the table.
-/

noncomputable section

open scoped BigOperators

namespace Cert.Segment

open Idealize.ShloMosaic Idealize.ShloMosaic.ValueIdx
open Idealize.ShloMosaic.StableHlo.Predicate (ixP)

/-! ## The scatter: where update (e, k') lands -/

section Scatter

variable {N C E w : Nat} (d : ScatterDims ⟨2, ![N, C]⟩ ⟨2, ![E, 1]⟩ ⟨2, ![E, C]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the second is the first. -/
private theorem fin2_eq_zero {X : Fin 2} (h : X ≠ 1) : X = 0 :=
  match X, h with
  | ⟨0, _⟩, _ => rfl
  | ⟨1, _⟩, h => absurd rfl h

/-- With the window on the updates' axis 1, the only update scatter axis is axis 0. -/
private theorem uScatter_eq_zero (huw : d.updateWindowDims = [1]) (X : Fin 2) (hX : X ∈ d.uScatter) : X = 0 := by
  have h2 := (List.mem_filter.1 hX).2
  rw [huw] at h2
  exact fin2_eq_zero (by simpa using h2)

/-- The start-indices index update (e, k') reads its one start component at: row e of the column. -/
theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>
    -- the one update scatter axis is axis 0 of the updates (axis 1 is the window axis); it reads the column's axis 0
    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

/-- On the operand's axis 0 the window of update (e, k') starts at the start index of row e, read signed … -/
theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

/-- … and on axis 1, which the start index does not name, at 0. -/
theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

/-- The operand's axis 0 is inserted: the window coordinate there is 0 … -/
theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

/-- … and on axis 1, the one kept axis, it is the update's column k'. -/
theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

/-- WHERE AN UPDATE LANDS. Update (e, k') lands on (n, k) exactly when the start index of row e, read signed, is n and
    k' = k; with a start index that is negative or at least N it lands nowhere. -/
theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

/-- THE SCATTER READ AT (n, k): the operand there plus the k-th entries of the update rows whose start index, read
    signed, is n. (The update indices landing on (n, k) are the (e, k) with start index n: one per such row e.) -/
theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1
  -- every update index is (e, k'); it is in the left sum exactly when its start index is n and k' = k
  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

/-! ## The gather of rows -/

section Gather

variable {α : Type} {N C E w : Nat} (d : GatherDims ⟨2, ![N, C]⟩ ⟨2, ![E, 1]⟩ ⟨2, ![E, C]⟩)

/-- With the offset on the result's axis 1, the only batch axis of the result is axis 0. -/
private theorem batchDims_eq_zero (hoff : d.offsetDims = [1]) (X : Fin 2) (hX : X ∈ d.batchDims) : X = 0 := by
  have h2 := (List.mem_filter.1 hX).2
  rw [hoff] at h2
  exact fin2_eq_zero (by simpa using h2)

/-- The start-indices index result (e, k) reads its one start component at: row e of the column. -/
theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>
    -- the result's one batch axis is its axis 0 (axis 1 is the offset axis); it reads the column's axis 0
    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (e, k): the operand's row named by the start index of e, read signed and clamped into
    [0, N − 1], at column k. (Axis 0 of the operand is collapsed and start-indexed, with slice size 1 there, so the
    row is the clamped start alone; axis 1 is not start-indexed, so the column is the result's offset coordinate.) -/
theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  · -- the column
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.KHostIn.lean ====
import proofs.«407627_j49795850829975_3_alg».proof.Proof.Gen.KernelIdeal.Frame
import proofs.«407627_j49795850829975_3_alg».proof.Proof.Spec
import proofs.«407627_j49795850829975_3_alg».proof.Proof.KArgs
import proofs.«407627_j49795850829975_3_alg».proof.Proof.LibSegment
import Idealize.ShloMosaic.Lib.Pipeline.Value

/-! # What the first message launch finds: the host operations before it, read as tables of the arguments -/

set_option maxRecDepth 16384

noncomputable section

open scoped BigOperators

namespace Cert.KernelIdeal.GnnK

open Idealize.ShloMosaic Idealize.ShloMosaic.TcCoe Idealize.SL.Sem Idealize.ShloMosaic.ValueIdx
open Idealize.ShloMosaic.Pipeline (Dat Cfg Window)
open Idealize.ShloMosaic.StableHlo.Predicate (ixP)
open Cert.KernelIdeal Cert.KernelIdeal.Gen Cert.Gnn

/-! ## Signed comparisons of an index that names a row -/

/-- For a word in [0, 100000) read signed: it is not below zero, it is at least zero, and it is at most 99999. -/
private theorem cmp_in_range (w : BitVec 32) (h0 : 0 ≤ w.toInt) (h1 : w.toInt < 100000) :
    IntOp.cmpi .slt w 0#32 = 0#1 ∧ IntOp.cmpi .sge w 0#32 = 1#1 ∧ IntOp.cmpi .sle w 99999#32 = 1#1 := by
  have z : (0#32 : BitVec 32).toInt = 0 := by simp
  have n := StableHlo.Predicate.toInt_ofNat_small 99999 (by norm_num)
  unfold IntOp.cmpi
  simp only [BitVec.slt, BitVec.sle, z, n]
  refine ⟨?_, ?_, ?_⟩
  · rw [decide_eq_false (by omega)]; rfl
  · rw [decide_eq_true (by omega)]; rfl
  · rw [decide_eq_true (by omega)]; rfl

/-- A conjunction of ones is one. -/
private theorem fold_andi_ones {ι : Type} [DecidableEq ι] (S : Finset ι) (x : ι → BitVec 1) (hx : ∀ i, x i = 1#1) :
    S.fold IntOp.andi 1#1 x = 1#1 := by
  refine Finset.induction_on S (Finset.fold_empty) ?_
  intro a S ha ih
  rw [Finset.fold_insert ha, ih, hx]; rfl

/-- Every index of a one-column table is a row of it. -/
private theorem eq_ixP {n : Nat} (i : (⟨2, ![n, 1]⟩ : Shape).Idx) : i = ixP (i 0) := by
  funext a
  match a with
  | ⟨0, _⟩ => rfl
  | ⟨1, _⟩ => exact Subsingleton.elim (α := Fin 1) _ _

/-- The rank-1 index at a coordinate, in its two spellings. -/
private theorem ofFin_eq_ix1 {n : Nat} (e : Fin n) : (Shape.Idx.ofFin e : (⟨1, ![n]⟩ : Shape).Idx) = ix1 e := by
  funext a
  match a with
  | ⟨0, _⟩ => exact Fin.ext rfl

/-- A broadcast of a table that is one value everywhere is that value everywhere. -/
private theorem bcast_of_forall {s t : Shape} {α : Type} (dims : Fin s.rank → Fin t.rank) (h : s.BroadcastsInDim t dims)
    (x : s.Idx → α) (v : α) (hx : ∀ j, x j = v) (i : t.Idx) : broadcastInDim t dims h x i = v := by
  unfold broadcastInDim
  exact hx _

/-! ## The take, read at an entry -/

/-- The wrapped index column at row e: a nonnegative index is kept as it is. -/
private theorem idx_read {n : Nat} (ids : IVec ⟨1, ![n]⟩ 32)
    (b0 : (⟨0, ![]⟩ : Shape).BroadcastsInDim ⟨1, ![n]⟩ ![]) (b1 : (⟨1, ![n]⟩ : Shape).BroadcastsInDim ⟨2, ![n, 1]⟩ ![0])
    (e : Fin n) (h0 : 0 ≤ (ids (ix1 e)).toInt) (h1 : (ids (ix1 e)).toInt < 100000) :
    broadcastInDim ⟨2, ![n, 1]⟩ ![0] b1
      (select (cmpi .slt ids (broadcastInDim ⟨1, ![n]⟩ ![] b0 (constantI ⟨0, ![]⟩ 32 0#32)))
        (addi ids (broadcastInDim ⟨1, ![n]⟩ ![] b0 (constantI ⟨0, ![]⟩ 32 100000#32))) ids) (ixP e) = ids (ix1 e) := by
  rw [StableHlo.Predicate.bcast_col1, ofFin_eq_ix1, select_apply]
  have hc : cmpi .slt ids (broadcastInDim ⟨1, ![n]⟩ ![] b0 (constantI ⟨0, ![]⟩ 32 0#32)) (ix1 e) = 0#1 :=
    (cmp_in_range _ h0 h1).1
  rw [hc, select_zero]

/-- The range mask is one at every row when every index names a row. -/
private theorem mask_one {n : Nat} (idx : IVec ⟨2, ![n, 1]⟩ 32)
    (b2 : (⟨0, ![]⟩ : Shape).BroadcastsInDim ⟨2, ![n, 1]⟩ ![]) (b3 : (⟨1, ![1]⟩ : Shape).BroadcastsInDim ⟨2, ![1, 1]⟩ ![1])
    (b4 : (⟨2, ![1, 1]⟩ : Shape).BroadcastsInDim ⟨2, ![n, 1]⟩ ![0, 1])
    (hr : (⟨2, ![n, 1]⟩ : Shape).ReducesTo [1] ⟨1, ![n]⟩) (hS : 0 < (⟨0, ![]⟩ : Shape).numel)
    (hidx : ∀ i, 0 ≤ (idx i).toInt ∧ (idx i).toInt < 100000) (j : (⟨1, ![n]⟩ : Shape).Idx) :
    Host.reduce IntOp.andi
      (andi (cmpi .sge idx (broadcastInDim ⟨2, ![n, 1]⟩ ![] b2 (constantI ⟨0, ![]⟩ 32 0#32)))
            (cmpi .sle idx (broadcastInDim ⟨2, ![n, 1]⟩ ![0, 1] b4 (broadcastInDim ⟨2, ![1, 1]⟩ ![1] b3 (constantI ⟨1, ![1]⟩ 32 99999#32)))))
      (constantI ⟨0, ![]⟩ 1 1#1) hr hS j = 1#1 := by
  rw [Host.reduce_eq_fold]
  refine fold_andi_ones _ _ (fun i => ?_)
  show IntOp.andi (IntOp.cmpi .sge (idx i) 0#32) (IntOp.cmpi .sle (idx i) 99999#32) = 1#1
  rw [(cmp_in_range _ (hidx i).1 (hidx i).2).2.1, (cmp_in_range _ (hidx i).1 (hidx i).2).2.2]; rfl

/-- THE TAKE under in-range indices: the mask keeps every gathered row, and row e is the table's row the e-th index names. -/
private theorem take_read (d : GatherDims ⟨2, ![100000, 64]⟩ ⟨2, ![500000, 1]⟩ ⟨2, ![500000, 64]⟩)
    (hoff : d.offsetDims = [1]) (hcoll : d.collapsedSliceDims = [0]) (hob : d.operandBatchingDims = [])
    (hsim : d.startIndexMap = [0]) (hivd : d.indexVectorDim = 1)
    (b0 : (⟨0, ![]⟩ : Shape).BroadcastsInDim ⟨1, ![500000]⟩ ![]) (b1 : (⟨1, ![500000]⟩ : Shape).BroadcastsInDim ⟨2, ![500000, 1]⟩ ![0])
    (b2 : (⟨0, ![]⟩ : Shape).BroadcastsInDim ⟨2, ![500000, 1]⟩ ![]) (b3 : (⟨1, ![1]⟩ : Shape).BroadcastsInDim ⟨2, ![1, 1]⟩ ![1])
    (b4 : (⟨2, ![1, 1]⟩ : Shape).BroadcastsInDim ⟨2, ![500000, 1]⟩ ![0, 1])
    (hr : (⟨2, ![500000, 1]⟩ : Shape).ReducesTo [1] ⟨1, ![500000]⟩) (hS : 0 < (⟨0, ![]⟩ : Shape).numel)
    (b5 : (⟨1, ![500000]⟩ : Shape).BroadcastsInDim ⟨2, ![500000, 64]⟩ ![0]) (b6 : (⟨0, ![]⟩ : Shape).BroadcastsInDim ⟨2, ![500000, 64]⟩ ![])
    (nf : Tab 100000 64) (ids : Ids 500000) (hs : InRange ids) (fill : (⟨0, ![]⟩ : Shape).Idx → EReal) :
    select
      (broadcastInDim ⟨2, ![500000, 64]⟩ ![0] b5
        (Host.reduce IntOp.andi
          (andi
            (cmpi .sge
              (broadcastInDim ⟨2, ![500000, 1]⟩ ![0] b1
                (select (cmpi .slt ids (broadcastInDim ⟨1, ![500000]⟩ ![] b0 (constantI ⟨0, ![]⟩ 32 0#32)))
                  (addi ids (broadcastInDim ⟨1, ![500000]⟩ ![] b0 (constantI ⟨0, ![]⟩ 32 100000#32))) ids))
              (broadcastInDim ⟨2, ![500000, 1]⟩ ![] b2 (constantI ⟨0, ![]⟩ 32 0#32)))
            (cmpi .sle
              (broadcastInDim ⟨2, ![500000, 1]⟩ ![0] b1
                (select (cmpi .slt ids (broadcastInDim ⟨1, ![500000]⟩ ![] b0 (constantI ⟨0, ![]⟩ 32 0#32)))
                  (addi ids (broadcastInDim ⟨1, ![500000]⟩ ![] b0 (constantI ⟨0, ![]⟩ 32 100000#32))) ids))
              (broadcastInDim ⟨2, ![500000, 1]⟩ ![0, 1] b4 (broadcastInDim ⟨2, ![1, 1]⟩ ![1] b3 (constantI ⟨1, ![1]⟩ 32 99999#32)))))
          (constantI ⟨0, ![]⟩ 1 1#1) hr hS))
      (Host.gather d nf
        (broadcastInDim ⟨2, ![500000, 1]⟩ ![0] b1
          (select (cmpi .slt ids (broadcastInDim ⟨1, ![500000]⟩ ![] b0 (constantI ⟨0, ![]⟩ 32 0#32)))
            (addi ids (broadcastInDim ⟨1, ![500000]⟩ ![] b0 (constantI ⟨0, ![]⟩ 32 100000#32))) ids)))
      (broadcastInDim ⟨2, ![500000, 64]⟩ ![] b6 fill)
    = takeTab nf ids := by
  funext i
  obtain ⟨e, k, rfl⟩ : ∃ e k, i = ix2 e k := ⟨i 0, i 1, eq_ix2 i⟩
  have hcol : ∀ i' : (⟨2, ![500000, 1]⟩ : Shape).Idx,
      0 ≤ ((broadcastInDim ⟨2, ![500000, 1]⟩ ![0] b1
        (select (cmpi .slt ids (broadcastInDim ⟨1, ![500000]⟩ ![] b0 (constantI ⟨0, ![]⟩ 32 0#32)))
          (addi ids (broadcastInDim ⟨1, ![500000]⟩ ![] b0 (constantI ⟨0, ![]⟩ 32 100000#32))) ids)) i').toInt
      ∧ ((broadcastInDim ⟨2, ![500000, 1]⟩ ![0] b1
        (select (cmpi .slt ids (broadcastInDim ⟨1, ![500000]⟩ ![] b0 (constantI ⟨0, ![]⟩ 32 0#32)))
          (addi ids (broadcastInDim ⟨1, ![500000]⟩ ![] b0 (constantI ⟨0, ![]⟩ 32 100000#32))) ids)) i').toInt < 100000 := fun i' => by
    obtain ⟨p, rfl⟩ : ∃ p : Fin 500000, i' = ixP p := ⟨i' 0, eq_ixP i'⟩
    rw [idx_read ids b0 b1 p (hs p).1 (hs p).2]
    exact hs p
  rw [select_apply, bcast_of_forall _ b5 _ 1#1 (mask_one _ b2 b3 b4 hr hS hcol) (ix2 e k), select_one,
    Cert.Segment.gather_rows d hoff hcoll hob hsim hivd nf _ e k (by norm_num)]
  exact congrArg (fun w : BitVec 32 => nf (ix2 (rowOf w) k)) (idx_read ids b0 b1 e (hs e).1 (hs e).2)

/-! ## A row block of the transposed weight, read at an entry -/

/-- Transpose, then rows off, …, off + r − 1 and all 64 columns, then a change of float format (the identity on extended
    reals): entry (k, o) is W (o, off + k). -/
private theorem wrows_read {C r : Nat} (off : Nat) (h : off + r ≤ C) (W : Tab 64 C)
    (htr : (⟨2, ![64, C]⟩ : Shape).Transposes [1, 0] ⟨2, ![C, 64]⟩)
    (hsl : (⟨2, ![C, 64]⟩ : Shape).Slices ![off, 0] ⟨2, ![r, 64]⟩) (hlt : FTy.bits .bf16 < FTy.bits .f32) :
    (truncf (F := Ideal) (φ := .f32) .bf16
        (extractStridedSlice ⟨2, ![r, 64]⟩ ![off, 0] (transpose ⟨2, ![C, 64]⟩ [1, 0] W htr) hsl) hlt : Tab r 64)
      = wRows W off r h := by
  funext i
  obtain ⟨k, o, rfl⟩ : ∃ k o, i = ix2 k o := ⟨i 0, i 1, eq_ix2 i⟩
  have hk := k.isLt
  refine (truncf_apply (ψ := .bf16) (φ := .f32) _ hlt (ix2 k o)).trans ?_
  refine (extractStridedSlice_apply ![off, 0] _ hsl (ix2 k o) (ix2 ⟨off + k.val, by omega⟩ o)
    (Fin.forall_fin_two.2 ⟨rfl, (Nat.zero_add _).symm⟩)).trans ?_
  exact transpose_apply [1, 0] W htr (ix2 ⟨off + k.val, by omega⟩ o) (ix2 o ⟨off + k.val, by omega⟩)
    (Fin.forall_fin_two.2 ⟨rfl, rfl⟩)

/-! ## Contents moved to a buffer's own type and back -/

/-- Contents carried to a buffer's own type and back are the contents. -/
private theorem ofBuf_toBuf {sg : RefSig} {Val : EltTy → Type} {T : BufTy} (x : StableHlo.TRef sg T) (v : T.Contents Val) :
    x.ofBuf (x.toBuf v) = v := by
  obtain ⟨r, h, _, _⟩ := x
  subst h
  rfl

/-! ## The stretches, each read at the buffer it writes -/

/-- A stretch of operations leaves a buffer that none of them writes as it was. -/
local macro "untouched" ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

set_option maxHeartbeats 1000000 in
/-- The first take, from any contents whose first endpoints all name rows: the table of the rows they name. -/
private theorem after_take0 (V : Valuation τ sig (Elt Ideal)) (nf : Tab 100000 64) (ids : Ids 500000)
    (hnf : (V (Proc.devRef .tc main_arg0) : Tab 100000 64) = nf) (hids : (V (Proc.devRef .tc main_arg2) : Ids 500000) = ids)
    (hs : InRange ids) :
    (StableHlo.after hostOps0 V (Proc.devRef .tc main_v0) : Tab 500000 64) = takeTab nf ids := by
  after_results
  simp only [ofBuf_toBuf]
  have e0 : (StableHlo.TRef.of main_arg0 : StableHlo.TRef sig ⟨S100000x64, .f32⟩).ofBuf (V (Proc.devRef .tc main_arg0)) = nf := hnf
  have e2 : (StableHlo.TRef.of main_arg2 : StableHlo.TRef sig ⟨S500000, .i32⟩).ofBuf (V (Proc.devRef .tc main_arg2)) = ids := hids
  rw [e0, e2]
  have key := take_read gather_S100000x64_S500000x1_S500000x64_1_0_n_n_0_1_164 rfl rfl rfl rfl rfl
    bcast_S_S500000 bcast_S500000_S500000x1_0 bcast_S_S500000x1 bcast_S1_S1x1_1 bcast_S1x1_S500000x1_0_1
    reducesTo_S500000x1_S500000_d1 h_S_ bcast_S500000_S500000x64_0 bcast_S_S500000x64 nf ids hs (constant (F := Ideal) S_ .f32 0x7FC00000#32)
  exact eq_of_heq ((cast_heq _ _).trans (heq_of_eq key))

set_option maxHeartbeats 1000000 in
/-- The second take, likewise by the second endpoints. -/
private theorem after_take1 (V : Valuation τ sig (Elt Ideal)) (nf : Tab 100000 64) (ids : Ids 500000)
    (hnf : (V (Proc.devRef .tc main_arg0) : Tab 100000 64) = nf) (hids : (V (Proc.devRef .tc main_arg3) : Ids 500000) = ids)
    (hd : InRange ids) :
    (StableHlo.after hostOps0_1 V (Proc.devRef .tc main_v1) : Tab 500000 64) = takeTab nf ids := by
  after_results
  simp only [ofBuf_toBuf]
  have e0 : (StableHlo.TRef.of main_arg0 : StableHlo.TRef sig ⟨S100000x64, .f32⟩).ofBuf (V (Proc.devRef .tc main_arg0)) = nf := hnf
  have e3 : (StableHlo.TRef.of main_arg3 : StableHlo.TRef sig ⟨S500000, .i32⟩).ofBuf (V (Proc.devRef .tc main_arg3)) = ids := hids
  rw [e0, e3]
  have key := take_read gather_S100000x64_S500000x1_S500000x64_1_0_n_n_0_1_164 rfl rfl rfl rfl rfl
    bcast_S_S500000 bcast_S500000_S500000x1_0 bcast_S_S500000x1 bcast_S1_S1x1_1 bcast_S1x1_S500000x1_0_1
    reducesTo_S500000x1_S500000_d1 h_S_ bcast_S500000_S500000x64_0 bcast_S_S500000x64 nf ids hd (constant (F := Ideal) S_ .f32 0x7FC00000#32)
  exact eq_of_heq ((cast_heq _ _).trans (heq_of_eq key))

/-- The three row blocks of the transposed message weight, from any contents. -/
private theorem after_w4 (V : Valuation τ sig (Elt Ideal)) :
    (StableHlo.after hostOps0_2 V (Proc.devRef .tc main_v4) : Tab 64 64)
      = wRows (V (Proc.devRef .tc main_arg4)) 0 64 (by omega) := by
  after_results
  exact wrows_read 0 _ _ _ _ _
private theorem after_w6 (V : Valuation τ sig (Elt Ideal)) :
    (StableHlo.after hostOps0_2 V (Proc.devRef .tc main_v6) : Tab 64 64)
      = wRows (V (Proc.devRef .tc main_arg4)) 64 64 (by omega) := by
  after_results
  exact wrows_read 64 _ _ _ _ _
private theorem after_w8 (V : Valuation τ sig (Elt Ideal)) :
    (StableHlo.after hostOps0_2 V (Proc.devRef .tc main_v8) : Tab 32 64)
      = wRows (V (Proc.devRef .tc main_arg4)) 128 32 (by omega) := by
  after_results
  exact wrows_read 128 _ _ _ _ _

variable (m : (ℓ : Loc nD τ sig) → Buf (Elt Ideal) ℓ) (ρ : Dev nD → PrngReg)

/-! ## The arguments before each stretch are as launched -/

private theorem W1_arg0 (c : Dev nD) : (W1 m ρ c (Proc.devRef .tc main_arg0) : Tab 100000 64) = nfOf m c := by
  show StableHlo.after hostOps0 (W0 m ρ c) (Proc.devRef .tc main_arg0) = W0 m ρ c (Proc.devRef .tc main_arg0)
  untouched hostOps0 main_arg0
private theorem W1_arg3 (c : Dev nD) : (W1 m ρ c (Proc.devRef .tc main_arg3) : Ids 500000) = dstOf m c := by
  show StableHlo.after hostOps0 (W0 m ρ c) (Proc.devRef .tc main_arg3) = W0 m ρ c (Proc.devRef .tc main_arg3)
  untouched hostOps0 main_arg3
private theorem W2_arg4 (c : Dev nD) : (W2 m ρ c (Proc.devRef .tc main_arg4) : Tab 64 160) = WeOf m c := by
  have h1 : StableHlo.after hostOps0_1 (W1 m ρ c) (Proc.devRef .tc main_arg4) = W1 m ρ c (Proc.devRef .tc main_arg4) := by
    untouched hostOps0_1 main_arg4
  have h0 : StableHlo.after hostOps0 (W0 m ρ c) (Proc.devRef .tc main_arg4) = W0 m ρ c (Proc.devRef .tc main_arg4) := by
    untouched hostOps0 main_arg4
  exact h1.trans h0

/-! ## What the first message launch finds -/

/-- The first gathered table: with every first endpoint a row of the node table, the take's range mask is all true and
    row e is the node row the e-th first endpoint names. -/
theorem V3_v0 (c : Dev nD) (hs : InRange (srcOf m c)) :
    (V3 m ρ c main_v0 : Tab 500000 64) = takeTab (nfOf m c) (srcOf m c) := by
  have h2 : StableHlo.after hostOps0_2 (W2 m ρ c) (Proc.devRef .tc main_v0) = W2 m ρ c (Proc.devRef .tc main_v0) := by
    untouched hostOps0_2 main_v0
  have h1 : StableHlo.after hostOps0_1 (W1 m ρ c) (Proc.devRef .tc main_v0) = W1 m ρ c (Proc.devRef .tc main_v0) := by
    untouched hostOps0_1 main_v0
  exact (h2.trans h1).trans (after_take0 (W0 m ρ c) (nfOf m c) (srcOf m c) rfl rfl hs)

/-- The second gathered table, likewise by the second endpoints. -/
theorem V3_v1 (c : Dev nD) (hd : InRange (dstOf m c)) :
    (V3 m ρ c main_v1 : Tab 500000 64) = takeTab (nfOf m c) (dstOf m c) := by
  have h2 : StableHlo.after hostOps0_2 (W2 m ρ c) (Proc.devRef .tc main_v1) = W2 m ρ c (Proc.devRef .tc main_v1) := by
    untouched hostOps0_2 main_v1
  exact h2.trans (after_take1 (W1 m ρ c) (nfOf m c) (dstOf m c) (W1_arg0 m ρ c) (W1_arg3 m ρ c) hd)

/-- The edge table is as launched. -/
theorem V3_arg1 (c : Dev nD) : (V3 m ρ c main_arg1 : Tab 500000 32) = efOf m c := by
  have h2 : StableHlo.after hostOps0_2 (W2 m ρ c) (Proc.devRef .tc main_arg1) = W2 m ρ c (Proc.devRef .tc main_arg1) := by
    untouched hostOps0_2 main_arg1
  have h1 : StableHlo.after hostOps0_1 (W1 m ρ c) (Proc.devRef .tc main_arg1) = W1 m ρ c (Proc.devRef .tc main_arg1) := by
    untouched hostOps0_1 main_arg1
  have h0 : StableHlo.after hostOps0 (W0 m ρ c) (Proc.devRef .tc main_arg1) = W0 m ρ c (Proc.devRef .tc main_arg1) := by
    untouched hostOps0 main_arg1
  exact (h2.trans h1).trans h0

/-- The three row blocks of the transposed message weight (a change of float format is the identity here). -/
theorem V3_v4 (c : Dev nD) : (V3 m ρ c main_v4 : Tab 64 64) = wRows (WeOf m c) 0 64 (by omega) :=
  (after_w4 (W2 m ρ c)).trans (congrArg (fun W : Tab 64 160 => wRows W 0 64 (by omega)) (W2_arg4 m ρ c))
theorem V3_v6 (c : Dev nD) : (V3 m ρ c main_v6 : Tab 64 64) = wRows (WeOf m c) 64 64 (by omega) :=
  (after_w6 (W2 m ρ c)).trans (congrArg (fun W : Tab 64 160 => wRows W 64 64 (by omega)) (W2_arg4 m ρ c))
theorem V3_v8 (c : Dev nD) : (V3 m ρ c main_v8 : Tab 32 64) = wRows (WeOf m c) 128 32 (by omega) :=
  (after_w8 (W2 m ρ c)).trans (congrArg (fun W : Tab 64 160 => wRows W 128 32 (by omega)) (W2_arg4 m ρ c))

end Cert.KernelIdeal.GnnK

end
-- ==== Proof.KHostMid.lean ====
import proofs.«407627_j49795850829975_3_alg».proof.Proof.Gen.KernelIdeal.Frame
import proofs.«407627_j49795850829975_3_alg».proof.Proof.Spec
import proofs.«407627_j49795850829975_3_alg».proof.Proof.KArgs
import proofs.«407627_j49795850829975_3_alg».proof.Proof.LibSegment
import Idealize.ShloMosaic.Lib.ValueLayout

/-! # Between the launches: what the second message launch and the node-update launch find -/

set_option maxRecDepth 16384

noncomputable section

open scoped BigOperators

namespace Cert.KernelIdeal.GnnK

open Idealize.ShloMosaic Idealize.ShloMosaic.TcCoe Idealize.SL.Sem Idealize.ShloMosaic.ValueIdx
open Idealize.ShloMosaic.Pipeline (Dat Cfg Window)
open Idealize.ShloMosaic.StableHlo.Predicate (ixP)
open Cert.KernelIdeal Cert.KernelIdeal.Gen Cert.Gnn

/-! ## Two reads at an index, over tables and index lists of the literal extents -/

/-- A 64-row block of the transposed weight, its float format narrowed (the identity on extended reals): entry (k, o)
    is W (o, off + k). -/
private theorem wRows_read {C : Nat} (off : Nat) (hoff : off + 64 ≤ C) (W : Tab 64 C)
    (hT : (⟨2, ![64, C]⟩ : Shape).Transposes [1, 0] ⟨2, ![C, 64]⟩)
    (hS : (⟨2, ![C, 64]⟩ : Shape).Slices ![off, 0] ⟨2, ![64, 64]⟩) (hb : FTy.bf16.bits < FTy.f32.bits) :
    (truncf (F := Ideal) (φ := .f32) .bf16 (extractStridedSlice ⟨2, ![64, 64]⟩ ![off, 0]
      (transpose ⟨2, ![C, 64]⟩ [1, 0] W hT) hS) hb : Tab 64 64) = wRows W off 64 hoff := by
  funext i
  obtain ⟨k, o, rfl⟩ : ∃ (k : Fin 64) (o : Fin 64), i = ix2 k o := ⟨i 0, i 1, eq_ix2 i⟩
  rw [truncf_apply]
  rw [extractStridedSlice_apply _ _ hS (ix2 k o) (ix2 ⟨off + k.val, by omega⟩ o)
    (fun a => match a with | ⟨0, _⟩ => rfl | ⟨1, _⟩ => (Nat.zero_add _).symm)]
  rw [transpose_ix2_apply]
  rfl

/-- Rows scattered additively into a zero table by a column of indices: entry (n, k) is 0 plus the sum of the k-th
    entries of the rows whose index, read signed, is n. -/
private theorem seg_read (d : ScatterDims ⟨2, ![100000, 64]⟩ ⟨2, ![500000, 1]⟩ ⟨2, ![500000, 64]⟩)
    (huw : d.updateWindowDims = [1]) (hiw : d.insertedWindowDims = [0])
    (hsd : d.scatterDimsToOperandDims = [0]) (hivd : d.indexVectorDim = 1)
    (hz : (⟨0, ![]⟩ : Shape).BroadcastsInDim ⟨2, ![100000, 64]⟩ ![])
    (hc : (⟨1, ![500000]⟩ : Shape).BroadcastsInDim ⟨2, ![500000, 1]⟩ ![0])
    (ids : Ids 500000) (M : Tab 500000 64) :
    (Host.scatterAdd (F := Ideal) (φ := .f32) d
      (broadcastInDim ⟨2, ![100000, 64]⟩ ![] hz (constant (F := Ideal) ⟨0, ![]⟩ .f32 0x00000000#32))
      (broadcastInDim ⟨2, ![500000, 1]⟩ ![0] hc ids) M : Tab 100000 64) = segTab ids M := by
  funext i
  obtain ⟨n, k, rfl⟩ : ∃ (n : Fin 100000) (k : Fin 64), i = ix2 n k := ⟨i 0, i 1, eq_ix2 i⟩
  show Ideal.hostScatterAdd d _ _ M (ix2 n k) = _
  rw [Cert.Segment.hostScatterAdd_rows d huw hiw hsd hivd]
  rw [StableHlo.Predicate.bcast_scalar hz (by decide), constant_apply, Ideal.ofBits_zero_f32]
  unfold segTab
  rw [tab2_ix2]
  have hcol : ∀ e : Fin 500000, broadcastInDim ⟨2, ![500000, 1]⟩ ![0] hc ids (ixP e) = ids (ix1 e) := fun e => by
    rw [StableHlo.Predicate.bcast_col1 hc ids e]
    exact congrArg ids (funext fun a => match a with | ⟨0, _⟩ => rfl)
  simp only [hcol]

/-- The sum of two such scatters is the entry by entry sum of the two segment-sum tables. -/
private theorem arrive_read (d : ScatterDims ⟨2, ![100000, 64]⟩ ⟨2, ![500000, 1]⟩ ⟨2, ![500000, 64]⟩)
    (huw : d.updateWindowDims = [1]) (hiw : d.insertedWindowDims = [0])
    (hsd : d.scatterDimsToOperandDims = [0]) (hivd : d.indexVectorDim = 1)
    (hz hz' : (⟨0, ![]⟩ : Shape).BroadcastsInDim ⟨2, ![100000, 64]⟩ ![])
    (hc hc' : (⟨1, ![500000]⟩ : Shape).BroadcastsInDim ⟨2, ![500000, 1]⟩ ![0])
    (ids ids' : Ids 500000) (M M' : Tab 500000 64) :
    (addf (F := Ideal) (s := ⟨2, ![100000, 64]⟩) (φ := .f32)
      (Host.scatterAdd (F := Ideal) (φ := .f32) d
        (broadcastInDim ⟨2, ![100000, 64]⟩ ![] hz (constant (F := Ideal) ⟨0, ![]⟩ .f32 0x00000000#32))
        (broadcastInDim ⟨2, ![500000, 1]⟩ ![0] hc ids) M)
      (Host.scatterAdd (F := Ideal) (φ := .f32) d
        (broadcastInDim ⟨2, ![100000, 64]⟩ ![] hz' (constant (F := Ideal) ⟨0, ![]⟩ .f32 0x00000000#32))
        (broadcastInDim ⟨2, ![500000, 1]⟩ ![0] hc' ids') M') : Tab 100000 64)
      = addTab (segTab ids M) (segTab ids' M') := by
  refine (congrArg₂ (addf (F := Ideal) (s := ⟨2, ![100000, 64]⟩) (φ := .f32))
    (seg_read d huw hiw hsd hivd hz hc ids M) (seg_read d huw hiw hsd hivd hz' hc' ids' M')).trans ?_
  rfl

variable (m : (ℓ : Loc nD τ sig) → Buf (Elt Ideal) ℓ) (ρ : Dev nD → PrngReg)

/-! ## The second message launch reads the first one's inputs, which a launch leaves as it found them -/

theorem V4_v0 (c : Dev nD) : V4 m ρ c main_v0 = V3 m ρ c main_v0 :=
  (W4_arr m ρ c 0).trans (((dat0 (V3 m ρ) c).arrAt_in 0 rfl _).trans (A_eq0 (V3 m ρ) c 0))
theorem V4_v1 (c : Dev nD) : V4 m ρ c main_v1 = V3 m ρ c main_v1 :=
  (W4_arr m ρ c 1).trans (((dat0 (V3 m ρ) c).arrAt_in 1 rfl _).trans (A_eq0 (V3 m ρ) c 1))
theorem V4_arg1 (c : Dev nD) : V4 m ρ c main_arg1 = V3 m ρ c main_arg1 :=
  (W4_arr m ρ c 2).trans (((dat0 (V3 m ρ) c).arrAt_in 2 rfl _).trans (A_eq0 (V3 m ρ) c 2))
theorem V4_v4 (c : Dev nD) : V4 m ρ c main_v4 = V3 m ρ c main_v4 :=
  (W4_arr m ρ c 3).trans (((dat0 (V3 m ρ) c).arrAt_in 3 rfl _).trans (A_eq0 (V3 m ρ) c 3))
theorem V4_v6 (c : Dev nD) : V4 m ρ c main_v6 = V3 m ρ c main_v6 :=
  (W4_arr m ρ c 4).trans (((dat0 (V3 m ρ) c).arrAt_in 4 rfl _).trans (A_eq0 (V3 m ρ) c 4))
theorem V4_v8 (c : Dev nD) : V4 m ρ c main_v8 = V3 m ρ c main_v8 :=
  (W4_arr m ρ c 5).trans (((dat0 (V3 m ρ) c).arrAt_in 5 rfl _).trans (A_eq0 (V3 m ρ) c 5))

/-! ## The two message arrays after both launches -/

/-- The first launch's output array is not touched by the second launch. -/
theorem W5_v9 (c : Dev nD) :
    (W5 m ρ c (Proc.devRef .tc main_v9) : Tab 500000 64) = (dat0 (F := Ideal) (V3 m ρ) c).arrAt 6 cfg0.N :=
  (W5_of_ne m ρ c main_v9 (by decide)).trans (W4_arr m ρ c 6)
theorem W5_v10 (c : Dev nD) :
    (W5 m ρ c (Proc.devRef .tc main_v10) : Tab 500000 64) = (dat1 (F := Ideal) (V4 m ρ) c).arrAt 6 cfg1.N :=
  W5_arr m ρ c 6

/-! ## The arguments after both launches: no launch window's array written, no host operation's result -/

/-- The node table is as launched. -/
private theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The first endpoints are as launched. -/
private theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The second endpoints are as launched. -/
private theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The node-update weight is as launched. -/
private theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## What the node-update launch finds -/

theorem V6_arg0 (c : Dev nD) : (V6 m ρ c main_arg0 : Tab 100000 64) = nfOf m c :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W5_arg0 m ρ c
/-- The two row blocks of the transposed node-update weight. -/
theorem V6_v20 (c : Dev nD) : (V6 m ρ c main_v20 : Tab 64 64) = wRows (WnOf m c) 0 64 (by omega) := by
  show StableHlo.after hostOps2 _ (Proc.devRef .tc main_v20) = _
  after_results
  rw [W5_arg5 m ρ c]
  exact wRows_read 0 _ _ _ _ _
theorem V6_v22 (c : Dev nD) : (V6 m ρ c main_v22 : Tab 64 64) = wRows (WnOf m c) 64 64 (by omega) := by
  show StableHlo.after hostOps2 _ (Proc.devRef .tc main_v22) = _
  after_results
  rw [W5_arg5 m ρ c]
  exact wRows_read 64 _ _ _ _ _
/-- What arrives at each node: the first message array summed by second endpoint, plus the second by first endpoint, each
    scattered into a zero table. -/
theorem V6_v17 (c : Dev nD) :
    (V6 m ρ c main_v17 : Tab 100000 64)
      = addTab (segTab (dstOf m c) (W5 m ρ c (Proc.devRef .tc main_v9))) (segTab (srcOf m c) (W5 m ρ c (Proc.devRef .tc main_v10))) := by
  show StableHlo.after hostOps2 _ (Proc.devRef .tc main_v17) = _
  after_results
  rw [W5_arg3 m ρ c, W5_arg2 m ρ c]
  refine arrive_read _ ?_ ?_ ?_ ?_ _ _ _ _ _ _ _ _ <;> rfl

end Cert.KernelIdeal.GnnK

end
-- ==== Proof.KValue.lean ====
import proofs.«407627_j49795850829975_3_alg».proof.Proof.Gen.KernelIdeal.Frame
import proofs.«407627_j49795850829975_3_alg».proof.Proof.Spec
import proofs.«407627_j49795850829975_3_alg».proof.Proof.KArgs
import proofs.«407627_j49795850829975_3_alg».proof.Proof.KRegionMsg0
import proofs.«407627_j49795850829975_3_alg».proof.Proof.KRegionMsg1
import proofs.«407627_j49795850829975_3_alg».proof.Proof.KRegionFin
import proofs.«407627_j49795850829975_3_alg».proof.Proof.KHostIn
import proofs.«407627_j49795850829975_3_alg».proof.Proof.KHostMid

/-! # The kernel program's result: the last boundary's contents at the result buffer is the layer of the arguments -/

set_option maxRecDepth 16384

noncomputable section

open scoped BigOperators

namespace Cert.KernelIdeal.GnnK

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gnn

variable (m : (ℓ : Loc nD τ sig) → Buf (Elt Ideal) ℓ) (ρ : Dev nD → PrngReg)

/-- With every endpoint a row of the node table, the result buffer after the last launch holds the layer of the six
    argument arrays: the node update of what the launch found, which is the argument node table, the two weights' row
    blocks and the two message arrays summed by endpoint; each message array is the message table of the gathered rows. -/
theorem result_eq (c : Dev nD) (hs : InRange (srcOf m c)) (hd : InRange (dstOf m c)) :
    (W7 m ρ c (Proc.devRef .tc main_v23) : Tab 100000 64)
      = layer (nfOf m c) (efOf m c) (srcOf m c) (dstOf m c) (WeOf m c) (WnOf m c) := by
  have h7 : (W7 m ρ c (Proc.devRef .tc main_v23) : Tab 100000 64) = (dat2 (F := Ideal) (V6 m ρ) c).arrAt 4 cfg2.N :=
    W7_arr m ρ c 4
  rw [h7, region2_value, V6_arg0, V6_v20, V6_v22, V6_v17, W5_v9, W5_v10, region0_value, region1_value,
    V4_v0, V4_v1, V4_arg1, V4_v4, V4_v6, V4_v8, V3_v0 m ρ c hs, V3_v1 m ρ c hd, V3_arg1, V3_v4, V3_v6, V3_v8]
  rfl

end Cert.KernelIdeal.GnnK

end
-- ==== Proof.RefTerm.lean ====
import proofs.«407627_j49795850829975_3_alg».proof.ReferenceIdeal
import proofs.«407627_j49795850829975_3_alg».proof.Proof.Gen.ReferenceIdeal
import Idealize.ShloMosaic.PureOps.Ideal

/-!
# The reference's result as one term

The host operations of the reference, composed: the doubled endpoint lists and edge table, the two row gathers (each
after the wrap of negative indices), the 160-wide concatenation and its product with the transposed weight, the
leaky rectifier, the scatter-add into a zero table by the doubled second endpoints, the 128-wide concatenation with
the node table, its product with the second transposed weight, and the rectifier again.
-/

noncomputable section

namespace Cert.ReferenceIdeal.GnnRef

open Idealize.ShloMosaic Idealize.SL.Sem
open Cert.ReferenceIdeal Cert.ReferenceIdeal.Facts₀ Cert.ReferenceIdeal.Facts

/-- The rectifier as the reference spells it on a 1000000 × 64 table: where y ≥ 0 the entry, elsewhere slope · entry. -/
def leakyE (y : FVec Ideal S1000000x64 .f32) (s : FVec Ideal S_ .f32) : FVec Ideal S1000000x64 .f32 :=
  select
    (cmpf .oge y (broadcastInDim S1000000x64 ![] bcast_S_S1000000x64 (constant (F := Ideal) S_ .f32 0x00000000#32)))
    y
    (mulf (broadcastInDim S1000000x64 ![] bcast_S_S1000000x64 (id s)) y)

/-- The same on a 100000 × 64 table. -/
def leakyN (y : FVec Ideal S100000x64 .f32) (s : FVec Ideal S_ .f32) : FVec Ideal S100000x64 .f32 :=
  select
    (cmpf .oge y (broadcastInDim S100000x64 ![] bcast_S_S100000x64 (constant (F := Ideal) S_ .f32 0x00000000#32)))
    y
    (mulf (broadcastInDim S100000x64 ![] bcast_S_S100000x64 (id s)) y)

/-- An index list with its negative entries wrapped by the table's height, as a column of start indices. -/
def wrapCol (ids : IVec S1000000 32) : IVec S1000000x1 32 :=
  broadcastInDim S1000000x1 ![0] bcast_S1000000_S1000000x1_0
    (select (cmpi .slt ids (broadcastInDim S1000000 ![] bcast_S_S1000000 (constantI S_ 32 0#32)))
      (addi ids (broadcastInDim S1000000 ![] bcast_S_S1000000 (constantI S_ 32 100000#32)))
      ids)

/-- The doubled first endpoints, second endpoints and edge table. -/
def srcCat (a2 a3 : IVec S500000 32) : IVec S1000000 32 :=
  concatenate S1000000 0 [⟨S500000, a2⟩, ⟨S500000, a3⟩] concatenates_S500000_S500000_S1000000_d0
def dstCat (a2 a3 : IVec S500000 32) : IVec S1000000 32 :=
  concatenate S1000000 0 [⟨S500000, a3⟩, ⟨S500000, a2⟩] concatenates_S500000_S500000_S1000000_d0
def efCat (a1 : FVec Ideal S500000x32 .f32) : FVec Ideal S1000000x32 .f32 :=
  concatenate S1000000x32 0 [⟨S500000x32, a1⟩, ⟨S500000x32, a1⟩] concatenates_S500000x32_S500000x32_S1000000x32_d0

/-- The messages of the doubled edge list. -/
def msgTerm (a0 : FVec Ideal S100000x64 .f32) (a1 : FVec Ideal S500000x32 .f32) (a2 a3 : IVec S500000 32)
    (a4 : FVec Ideal S64x160 .f32) : FVec Ideal S1000000x64 .f32 :=
  leakyE
    (Host.dotGeneral dot_S1000000x160_S160x64_S1000000x64_1_0_0_1_n_n none
      (concatenate S1000000x160 1
        [⟨S1000000x64, Host.gather gather_S100000x64_S1000000x1_S1000000x64_1_0_n_n_0_1_164 a0 (wrapCol (srcCat a2 a3))⟩,
         ⟨S1000000x64, Host.gather gather_S100000x64_S1000000x1_S1000000x64_1_0_n_n_0_1_164 a0 (wrapCol (dstCat a2 a3))⟩,
         ⟨S1000000x32, efCat a1⟩]
        concatenates_S1000000x64_S1000000x64_S1000000x32_S1000000x160_d1)
      (transpose S160x64 [1, 0] a4 transposes_S64x160_S160x64_1_0))
    (constant (F := Ideal) S_ .f32 0x3C23D70A#32)

/-- What arrives at each node: the messages scattered into a zero table by the doubled second endpoints. -/
def redTerm (a0 : FVec Ideal S100000x64 .f32) (a1 : FVec Ideal S500000x32 .f32) (a2 a3 : IVec S500000 32)
    (a4 : FVec Ideal S64x160 .f32) : FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (dstCat a2 a3))
    (msgTerm a0 a1 a2 a3 a4)

/-- The reference's result. -/
def refTerm (a0 : FVec Ideal S100000x64 .f32) (a1 : FVec Ideal S500000x32 .f32) (a2 a3 : IVec S500000 32)
    (a4 : FVec Ideal S64x160 .f32) (a5 : FVec Ideal S64x128 .f32) : FVec Ideal S100000x64 .f32 :=
  leakyN
    (Host.dotGeneral dot_S100000x128_S128x64_S100000x64_1_0_0_1_n_n none
      (concatenate S100000x128 1 [⟨S100000x64, a0⟩, ⟨S100000x64, redTerm a0 a1 a2 a3 a4⟩]
        concatenates_S100000x64_S100000x64_S100000x128_d1)
      (transpose S128x64 [1, 0] a5 transposes_S64x128_S128x64_1_0))
    (constant (F := Ideal) S_ .f32 0x3C23D70A#32)

end Cert.ReferenceIdeal.GnnRef

end
-- ==== Proof.LibNary3.lean ====
/-
  A general fact about a host operation of three operands: its result, with each operand's contents at its own
  reference.
-/
import Idealize.ShloMosaic.Lib.StableHlo.Run

namespace Idealize.ShloMosaic.StableHlo

variable {τ : Topo} {sig : RefSig} {Val : EltTy → Type} {x a b y : Ref sig .tc}

/-- An operation over a LITERAL family of three references (a concatenation of three operands) leaves in its result
    buffer its function of the three operands' contents, each read at its own reference: the family of contents
    `fun k => F (![x, a, b] k)` is the three contents consed, so that the operands' contents can be rewritten in turn. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.RefRun.lean ====
import proofs.«407627_j49795850829975_3_alg».proof.ReferenceIdeal
import proofs.«407627_j49795850829975_3_alg».proof.Proof.Gen.ReferenceIdeal
import proofs.«407627_j49795850829975_3_alg».proof.Proof.RefTerm
import proofs.«407627_j49795850829975_3_alg».proof.Proof.LibNary3
import Idealize.ShloMosaic.Lib.StableHlo.Run

/-! # The reference's run: every execution ends with the result buffer at the composed term of the arguments -/

noncomputable section

namespace Cert.ReferenceIdeal.GnnRef

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-! ## The program as a line of operations

Six stretches, in order. Each is listed once on its own, so that its effect can be read back apart from the others,
and once more inside the whole line. -/

/-- The doubling, three operations: the first endpoints before the second, the second before the first, the edge table
    before itself. -/
private abbrev opsDup : List (HloOp τ sig (Elt F)) :=
  [ binary main_arg2 main_arg3 main_v0 (fun a b => concatenate S1000000 0 [⟨S500000, a⟩, ⟨S500000, b⟩] concatenates_S500000_S500000_S1000000_d0),
    binary main_arg3 main_arg2 main_v1 (fun a b => concatenate S1000000 0 [⟨S500000, a⟩, ⟨S500000, b⟩] concatenates_S500000_S500000_S1000000_d0),
    binary main_arg1 main_arg1 main_v2 (fun a b => concatenate S1000000x32 0 [⟨S500000x32, a⟩, ⟨S500000x32, b⟩] concatenates_S500000x32_S500000x32_S1000000x32_d0) ]

/-- The two row gathers, eighteen operations: for each doubled endpoint list the wrap of its negative entries (zero, its
    broadcast, the comparison; the table's height, its broadcast, the sum; the select), the column of start indices, and
    the gather of the node table's rows. -/
private abbrev opsRows : List (HloOp τ sig (Elt F)) :=
  [ nullary main_c (constantI S_ 32 0#32),
    unary main_c main_v3 (broadcastInDim S1000000 ![] bcast_S_S1000000),
    binary main_v0 main_v3 main_v4 (cmpi .slt),
    nullary main_c_0 (constantI S_ 32 100000#32),
    unary main_c_0 main_v5 (broadcastInDim S1000000 ![] bcast_S_S1000000),
    binary main_v0 main_v5 main_v6 addi,
    ternary main_v4 main_v6 main_v0 main_v7 select,
    unary main_v7 main_v8 (broadcastInDim S1000000x1 ![0] bcast_S1000000_S1000000x1_0),
    binary main_arg0 main_v8 main_v9 (fun x i => Host.gather gather_S100000x64_S1000000x1_S1000000x64_1_0_n_n_0_1_164 x i),
    nullary main_c_1 (constantI S_ 32 0#32),
    unary main_c_1 main_v10 (broadcastInDim S1000000 ![] bcast_S_S1000000),
    binary main_v1 main_v10 main_v11 (cmpi .slt),
    nullary main_c_2 (constantI S_ 32 100000#32),
    unary main_c_2 main_v12 (broadcastInDim S1000000 ![] bcast_S_S1000000),
    binary main_v1 main_v12 main_v13 addi,
    ternary main_v11 main_v13 main_v1 main_v14 select,
    unary main_v14 main_v15 (broadcastInDim S1000000x1 ![0] bcast_S1000000_S1000000x1_0),
    binary main_arg0 main_v15 main_v16 (fun x i => Host.gather gather_S100000x64_S1000000x1_S1000000x64_1_0_n_n_0_1_164 x i) ]

/-- The first product, four operations: the 160-wide concatenation, the transposed first weight, their product, and the
    slope. -/
private abbrev opsProdE : List (HloOp τ sig (Elt F)) :=
  [ nary ![main_v9, main_v16, main_v2] main_v17 (fun u => concatenate S1000000x160 1 [⟨S1000000x64, u 0⟩, ⟨S1000000x64, u 1⟩, ⟨S1000000x32, u 2⟩] concatenates_S1000000x64_S1000000x64_S1000000x32_S1000000x160_d1),
    unary main_arg4 main_v18 (transpose S160x64 [1, 0] · transposes_S64x160_S160x64_1_0),
    binary main_v17 main_v18 main_v19 (fun l r => Host.dotGeneral dot_S1000000x160_S160x64_S1000000x64_1_0_0_1_n_n none l r),
    nullary main_cst (constant S_ .f32 0x3C23D70A#32) ]

/-- The rectifier on the 1000000 × 64 product, written out where it is called: zero, its broadcast, the comparison, the
    slope passed on, its broadcast, the scaled table, and the select between the table and its scaling. -/
private abbrev opsActE : List (HloOp τ sig (Elt F)) :=
  [ TRef.nullary main_call0.cst (constant S_ .f32 0x00000000#32),
    TRef.unary main_call0.cst main_call0.v0 (broadcastInDim S1000000x64 ![] bcast_S_S1000000x64),
    TRef.binary (.of main_v19 : TRef sig ⟨S1000000x64, .f32⟩) main_call0.v0 main_call0.v1 (cmpf .oge),
    TRef.unary (.of main_cst : TRef sig ⟨S_, .f32⟩) main_call0.v2 id,
    TRef.unary main_call0.v2 main_call0.v3 (broadcastInDim S1000000x64 ![] bcast_S_S1000000x64),
    TRef.binary main_call0.v3 (.of main_v19 : TRef sig ⟨S1000000x64, .f32⟩) main_call0.v4 mulf,
    TRef.ternary main_call0.v1 (.of main_v19 : TRef sig ⟨S1000000x64, .f32⟩) main_call0.v4 main_call0.call0.v0 select ]

/-- The second product, eight operations: the zero table, the column of doubled second endpoints, the scatter-add of the
    messages, the 128-wide concatenation with the node table, the transposed second weight, their product, the slope. -/
private abbrev opsMid : List (HloOp τ sig (Elt F)) :=
  [ nullary main_cst_3 (constant S_ .f32 0x00000000#32),
    unary main_cst_3 main_v21 (broadcastInDim S100000x64 ![] bcast_S_S100000x64),
    unary main_v1 main_v22 (broadcastInDim S1000000x1 ![0] bcast_S1000000_S1000000x1_0),
    ternary main_v21 main_v22 main_v20 main_v23 (fun x i u => Host.scatterAdd scatter_S100000x64_S1000000x1_S1000000x64_1_0_0_1 x i u),
    binary main_arg0 main_v23 main_v24 (fun a b => concatenate S100000x128 1 [⟨S100000x64, a⟩, ⟨S100000x64, b⟩] concatenates_S100000x64_S100000x64_S100000x128_d1),
    unary main_arg5 main_v25 (transpose S128x64 [1, 0] · transposes_S64x128_S128x64_1_0),
    binary main_v24 main_v25 main_v26 (fun l r => Host.dotGeneral dot_S100000x128_S128x64_S100000x64_1_0_0_1_n_n none l r),
    nullary main_cst_4 (constant S_ .f32 0x3C23D70A#32) ]

/-- The rectifier on the 100000 × 64 product, written out where it is called. -/
private abbrev opsActN : List (HloOp τ sig (Elt F)) :=
  [ TRef.nullary main_call1.cst (constant S_ .f32 0x00000000#32),
    TRef.unary main_call1.cst main_call1.v0 (broadcastInDim S100000x64 ![] bcast_S_S100000x64),
    TRef.binary (.of main_v26 : TRef sig ⟨S100000x64, .f32⟩) main_call1.v0 main_call1.v1 (cmpf .oge),
    TRef.unary (.of main_cst_4 : TRef sig ⟨S_, .f32⟩) main_call1.v2 id,
    TRef.unary main_call1.v2 main_call1.v3 (broadcastInDim S100000x64 ![] bcast_S_S100000x64),
    TRef.binary main_call1.v3 (.of main_v26 : TRef sig ⟨S100000x64, .f32⟩) main_call1.v4 mulf,
    TRef.ternary main_call1.v1 (.of main_v26 : TRef sig ⟨S100000x64, .f32⟩) main_call1.v4 main_call1.call0.v0 select ]

/-- The whole line, forty-seven operations. -/
private abbrev refOps : List (HloOp τ sig (Elt F)) :=
  [ binary main_arg2 main_arg3 main_v0 (fun a b => concatenate S1000000 0 [⟨S500000, a⟩, ⟨S500000, b⟩] concatenates_S500000_S500000_S1000000_d0),
    binary main_arg3 main_arg2 main_v1 (fun a b => concatenate S1000000 0 [⟨S500000, a⟩, ⟨S500000, b⟩] concatenates_S500000_S500000_S1000000_d0),
    binary main_arg1 main_arg1 main_v2 (fun a b => concatenate S1000000x32 0 [⟨S500000x32, a⟩, ⟨S500000x32, b⟩] concatenates_S500000x32_S500000x32_S1000000x32_d0),
    nullary main_c (constantI S_ 32 0#32),
    unary main_c main_v3 (broadcastInDim S1000000 ![] bcast_S_S1000000),
    binary main_v0 main_v3 main_v4 (cmpi .slt),
    nullary main_c_0 (constantI S_ 32 100000#32),
    unary main_c_0 main_v5 (broadcastInDim S1000000 ![] bcast_S_S1000000),
    binary main_v0 main_v5 main_v6 addi,
    ternary main_v4 main_v6 main_v0 main_v7 select,
    unary main_v7 main_v8 (broadcastInDim S1000000x1 ![0] bcast_S1000000_S1000000x1_0),
    binary main_arg0 main_v8 main_v9 (fun x i => Host.gather gather_S100000x64_S1000000x1_S1000000x64_1_0_n_n_0_1_164 x i),
    nullary main_c_1 (constantI S_ 32 0#32),
    unary main_c_1 main_v10 (broadcastInDim S1000000 ![] bcast_S_S1000000),
    binary main_v1 main_v10 main_v11 (cmpi .slt),
    nullary main_c_2 (constantI S_ 32 100000#32),
    unary main_c_2 main_v12 (broadcastInDim S1000000 ![] bcast_S_S1000000),
    binary main_v1 main_v12 main_v13 addi,
    ternary main_v11 main_v13 main_v1 main_v14 select,
    unary main_v14 main_v15 (broadcastInDim S1000000x1 ![0] bcast_S1000000_S1000000x1_0),
    binary main_arg0 main_v15 main_v16 (fun x i => Host.gather gather_S100000x64_S1000000x1_S1000000x64_1_0_n_n_0_1_164 x i),
    nary ![main_v9, main_v16, main_v2] main_v17 (fun u => concatenate S1000000x160 1 [⟨S1000000x64, u 0⟩, ⟨S1000000x64, u 1⟩, ⟨S1000000x32, u 2⟩] concatenates_S1000000x64_S1000000x64_S1000000x32_S1000000x160_d1),
    unary main_arg4 main_v18 (transpose S160x64 [1, 0] · transposes_S64x160_S160x64_1_0),
    binary main_v17 main_v18 main_v19 (fun l r => Host.dotGeneral dot_S1000000x160_S160x64_S1000000x64_1_0_0_1_n_n none l r),
    nullary main_cst (constant S_ .f32 0x3C23D70A#32),
    TRef.nullary main_call0.cst (constant S_ .f32 0x00000000#32),
    TRef.unary main_call0.cst main_call0.v0 (broadcastInDim S1000000x64 ![] bcast_S_S1000000x64),
    TRef.binary (.of main_v19 : TRef sig ⟨S1000000x64, .f32⟩) main_call0.v0 main_call0.v1 (cmpf .oge),
    TRef.unary (.of main_cst : TRef sig ⟨S_, .f32⟩) main_call0.v2 id,
    TRef.unary main_call0.v2 main_call0.v3 (broadcastInDim S1000000x64 ![] bcast_S_S1000000x64),
    TRef.binary main_call0.v3 (.of main_v19 : TRef sig ⟨S1000000x64, .f32⟩) main_call0.v4 mulf,
    TRef.ternary main_call0.v1 (.of main_v19 : TRef sig ⟨S1000000x64, .f32⟩) main_call0.v4 main_call0.call0.v0 select,
    nullary main_cst_3 (constant S_ .f32 0x00000000#32),
    unary main_cst_3 main_v21 (broadcastInDim S100000x64 ![] bcast_S_S100000x64),
    unary main_v1 main_v22 (broadcastInDim S1000000x1 ![0] bcast_S1000000_S1000000x1_0),
    ternary main_v21 main_v22 main_v20 main_v23 (fun x i u => Host.scatterAdd scatter_S100000x64_S1000000x1_S1000000x64_1_0_0_1 x i u),
    binary main_arg0 main_v23 main_v24 (fun a b => concatenate S100000x128 1 [⟨S100000x64, a⟩, ⟨S100000x64, b⟩] concatenates_S100000x64_S100000x64_S100000x128_d1),
    unary main_arg5 main_v25 (transpose S128x64 [1, 0] · transposes_S64x128_S128x64_1_0),
    binary main_v24 main_v25 main_v26 (fun l r => Host.dotGeneral dot_S100000x128_S128x64_S100000x64_1_0_0_1_n_n none l r),
    nullary main_cst_4 (constant S_ .f32 0x3C23D70A#32),
    TRef.nullary main_call1.cst (constant S_ .f32 0x00000000#32),
    TRef.unary main_call1.cst main_call1.v0 (broadcastInDim S100000x64 ![] bcast_S_S100000x64),
    TRef.binary (.of main_v26 : TRef sig ⟨S100000x64, .f32⟩) main_call1.v0 main_call1.v1 (cmpf .oge),
    TRef.unary (.of main_cst_4 : TRef sig ⟨S_, .f32⟩) main_call1.v2 id,
    TRef.unary main_call1.v2 main_call1.v3 (broadcastInDim S100000x64 ![] bcast_S_S100000x64),
    TRef.binary main_call1.v3 (.of main_v26 : TRef sig ⟨S100000x64, .f32⟩) main_call1.v4 mulf,
    TRef.ternary main_call1.v1 (.of main_v26 : TRef sig ⟨S100000x64, .f32⟩) main_call1.v4 main_call1.call0.v0 select ]

private theorem refOps_eq : (refOps : List (HloOp τ sig (Elt F))) = opsDup ++ opsRows ++ opsProdE ++ opsActE ++ opsMid ++ opsActN := rfl

-- the chain has forty-seven steps, each one level of nesting
set_option maxRecDepth 1024 in
/-- The program is that line: each rectifier's body and the select it calls, unfolded where they are called, are
    further steps of the same chain once the sequencing is re-associated. -/
private theorem refMain_eq (c : Dev nD) : main (F := F) c = seq refOps := by
  simp only [main, fn_leaky_relu.body, fn_leaky_relu_0.body, fn_where.body, fn_where_1.body, seq, bind_assoc, pure_bind]
  rfl

private theorem refScopedRefs_eq : (Finset.univ.filter fun b : Ref sig .tc => b.isScoped) = ∅ := by decide
private theorem refScopedSems_eq : (Finset.univ.filter fun sm : SemLoc sig => sm.isScoped .tc) = ∅ := by decide

private theorem refOps_sub : (refOps : List (HloOp τ sig (Elt F))).Forall fun op => op.bufs ⊆ tcRefs τ sig :=
  ⟨binary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., nullary_bufs_sub .., unary_bufs_sub .., unary_bufs_sub .., ternary_bufs_sub ..,
    binary_bufs_sub .., unary_bufs_sub .., binary_bufs_sub .., nullary_bufs_sub .., nullary_bufs_sub .., unary_bufs_sub ..,
    binary_bufs_sub .., unary_bufs_sub .., unary_bufs_sub .., binary_bufs_sub .., ternary_bufs_sub ..⟩

/-! ## The fold, stretch by stretch -/

/-- The fold over two lines run one after the other is the second line's fold over the first's. -/
private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- The fold read one step at a time, outermost first: an operation's result at its own buffer is its function of its
    operands' contents, and at any other buffer what was there before it. -/
local macro "ref_results" : tactic =>
  `(tactic| (simp only [after_cons, after_nil]
             repeat (first
               | rw [nullary_result] | rw [unary_result] | rw [binary_result] | rw [ternary_result] | rw [nary3_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

/-- The fold read in one pass: the same two facts about every operation, applied throughout the term at once. -/
local macro "ref_results_simp" : tactic =>
  `(tactic| (simp (disch := decide) only [after_cons, after_nil,
      nullary_result', unary_result', binary_result', ternary_result',
      nullary_result_ne', unary_result_ne', binary_result_ne', ternary_result_ne', nary_result_ne']))

/-- The rows of the node table at a list of indices, negative ones wrapped. -/
private def rowsAt (a0 : FVec Ideal S100000x64 .f32) (ids : IVec S1000000 32) : FVec Ideal S1000000x64 .f32 :=
  Host.gather gather_S100000x64_S1000000x1_S1000000x64_1_0_n_n_0_1_164 a0 (wrapCol ids)

/-- The first product: the 160-wide concatenation of two 64-wide tables and a 32-wide one, times the transposed first
    weight. -/
private def prodE (g h : FVec Ideal S1000000x64 .f32) (e : FVec Ideal S1000000x32 .f32) (a4 : FVec Ideal S64x160 .f32) :
    FVec Ideal S1000000x64 .f32 :=
  Host.dotGeneral dot_S1000000x160_S160x64_S1000000x64_1_0_0_1_n_n none
    (concatenate S1000000x160 1 [⟨S1000000x64, g⟩, ⟨S1000000x64, h⟩, ⟨S1000000x32, e⟩]
      concatenates_S1000000x64_S1000000x64_S1000000x32_S1000000x160_d1)
    (transpose S160x64 [1, 0] a4 transposes_S64x160_S160x64_1_0)

/-- The second product: the node table concatenated with a message table scattered into a zero table by a list of
    endpoints, times the transposed second weight. -/
private def prodN (a0 : FVec Ideal S100000x64 .f32) (d : IVec S1000000 32) (g : FVec Ideal S1000000x64 .f32)
    (a5 : FVec Ideal S64x128 .f32) : FVec Ideal S100000x64 .f32 :=
  Host.dotGeneral dot_S100000x128_S128x64_S100000x64_1_0_0_1_n_n none
    (concatenate S100000x128 1
      [⟨S100000x64, a0⟩,
       ⟨S100000x64, Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 d) g⟩]
      concatenates_S100000x64_S100000x64_S100000x128_d1)
    (transpose S128x64 [1, 0] a5 transposes_S64x128_S128x64_1_0)

/-! ### The doubling -/

/-- After the doubling the three doubled tables are in their buffers … -/
private theorem dup_v0 (V : Valuation τ sig (Elt Ideal)) :
    after (opsDup (F := Ideal)) V (main_v0 : DevRef τ sig) = srcCat (V (main_arg2 : DevRef τ sig)) (V (main_arg3 : DevRef τ sig)) := by
  ref_results
  all_goals rfl

private theorem dup_v1 (V : Valuation τ sig (Elt Ideal)) :
    after (opsDup (F := Ideal)) V (main_v1 : DevRef τ sig) = dstCat (V (main_arg2 : DevRef τ sig)) (V (main_arg3 : DevRef τ sig)) := by
  ref_results
  all_goals rfl

private theorem dup_v2 (V : Valuation τ sig (Elt Ideal)) :
    after (opsDup (F := Ideal)) V (main_v2 : DevRef τ sig) = efCat (V (main_arg1 : DevRef τ sig)) := by
  ref_results
  all_goals rfl

/-! … and the arguments read later are as they were. -/

private theorem dup_arg0 (V : Valuation τ sig (Elt Ideal)) : after (opsDup (F := Ideal)) V (main_arg0 : DevRef τ sig) = V (main_arg0 : DevRef τ sig) := by
  ref_results_simp
private theorem dup_arg4 (V : Valuation τ sig (Elt Ideal)) : after (opsDup (F := Ideal)) V (main_arg4 : DevRef τ sig) = V (main_arg4 : DevRef τ sig) := by
  ref_results_simp
private theorem dup_arg5 (V : Valuation τ sig (Elt Ideal)) : after (opsDup (F := Ideal)) V (main_arg5 : DevRef τ sig) = V (main_arg5 : DevRef τ sig) := by
  ref_results_simp

/-! ### The row gathers -/

/-- The two gathered tables are the node table's rows at the two doubled lists … -/
private theorem rows_v9 (V : Valuation τ sig (Elt Ideal)) :
    after (opsRows (F := Ideal)) V (main_v9 : DevRef τ sig) = rowsAt (V (main_arg0 : DevRef τ sig)) (V (main_v0 : DevRef τ sig)) := by
  ref_results_simp
  rfl

private theorem rows_v16 (V : Valuation τ sig (Elt Ideal)) :
    after (opsRows (F := Ideal)) V (main_v16 : DevRef τ sig) = rowsAt (V (main_arg0 : DevRef τ sig)) (V (main_v1 : DevRef τ sig)) := by
  ref_results_simp
  rfl

/-! … and nothing read later is written. -/

private theorem rows_v1 (V : Valuation τ sig (Elt Ideal)) : after (opsRows (F := Ideal)) V (main_v1 : DevRef τ sig) = V (main_v1 : DevRef τ sig) := by
  ref_results_simp
private theorem rows_v2 (V : Valuation τ sig (Elt Ideal)) : after (opsRows (F := Ideal)) V (main_v2 : DevRef τ sig) = V (main_v2 : DevRef τ sig) := by
  ref_results_simp
private theorem rows_arg0 (V : Valuation τ sig (Elt Ideal)) : after (opsRows (F := Ideal)) V (main_arg0 : DevRef τ sig) = V (main_arg0 : DevRef τ sig) := by
  ref_results_simp
private theorem rows_arg4 (V : Valuation τ sig (Elt Ideal)) : after (opsRows (F := Ideal)) V (main_arg4 : DevRef τ sig) = V (main_arg4 : DevRef τ sig) := by
  ref_results_simp
private theorem rows_arg5 (V : Valuation τ sig (Elt Ideal)) : after (opsRows (F := Ideal)) V (main_arg5 : DevRef τ sig) = V (main_arg5 : DevRef τ sig) := by
  ref_results_simp

/-! ### The first product -/

/-- The product buffer holds the first product of the two gathered tables, the doubled edge table and the first weight,
    and the slope is in its buffer … -/
private theorem prodE_v19 (V : Valuation τ sig (Elt Ideal)) :
    after (opsProdE (F := Ideal)) V (main_v19 : DevRef τ sig) = prodE (V (main_v9 : DevRef τ sig)) (V (main_v16 : DevRef τ sig)) (V (main_v2 : DevRef τ sig)) (V (main_arg4 : DevRef τ sig)) := by
  ref_results
  all_goals rfl

private theorem prodE_cst (V : Valuation τ sig (Elt Ideal)) :
    after (opsProdE (F := Ideal)) V (main_cst : DevRef τ sig) = constant (F := Ideal) S_ .f32 0x3C23D70A#32 := by
  ref_results
  all_goals rfl

/-! … and nothing read later is written. -/

private theorem prodE_v1 (V : Valuation τ sig (Elt Ideal)) : after (opsProdE (F := Ideal)) V (main_v1 : DevRef τ sig) = V (main_v1 : DevRef τ sig) := by
  ref_results_simp
private theorem prodE_arg0 (V : Valuation τ sig (Elt Ideal)) : after (opsProdE (F := Ideal)) V (main_arg0 : DevRef τ sig) = V (main_arg0 : DevRef τ sig) := by
  ref_results_simp
private theorem prodE_arg5 (V : Valuation τ sig (Elt Ideal)) : after (opsProdE (F := Ideal)) V (main_arg5 : DevRef τ sig) = V (main_arg5 : DevRef τ sig) := by
  ref_results_simp

/-! ### The first rectifier -/

/-- The rectifier's seven operations leave in the message buffer the rectifier of the product buffer at the slope
    buffer … -/
private theorem actE_v20 (V : Valuation τ sig (Elt Ideal)) :
    after (opsActE (F := Ideal)) V (main_v20 : DevRef τ sig) = leakyE (V (main_v19 : DevRef τ sig)) (V (main_cst : DevRef τ sig)) := by
  ref_results
  all_goals rfl

/-! … and write nothing else that is read later. -/

private theorem actE_v1 (V : Valuation τ sig (Elt Ideal)) : after (opsActE (F := Ideal)) V (main_v1 : DevRef τ sig) = V (main_v1 : DevRef τ sig) := by
  ref_results_simp
private theorem actE_arg0 (V : Valuation τ sig (Elt Ideal)) : after (opsActE (F := Ideal)) V (main_arg0 : DevRef τ sig) = V (main_arg0 : DevRef τ sig) := by
  ref_results_simp
private theorem actE_arg5 (V : Valuation τ sig (Elt Ideal)) : after (opsActE (F := Ideal)) V (main_arg5 : DevRef τ sig) = V (main_arg5 : DevRef τ sig) := by
  ref_results_simp

/-! ### The second product and the second rectifier -/

/-- The second product buffer holds the second product of the node table, the doubled second endpoints, the messages and
    the second weight, and the slope is in its buffer. -/
private theorem mid_v26 (V : Valuation τ sig (Elt Ideal)) :
    after (opsMid (F := Ideal)) V (main_v26 : DevRef τ sig) = prodN (V (main_arg0 : DevRef τ sig)) (V (main_v1 : DevRef τ sig)) (V (main_v20 : DevRef τ sig)) (V (main_arg5 : DevRef τ sig)) := by
  ref_results
  all_goals rfl

private theorem mid_cst4 (V : Valuation τ sig (Elt Ideal)) :
    after (opsMid (F := Ideal)) V (main_cst_4 : DevRef τ sig) = constant (F := Ideal) S_ .f32 0x3C23D70A#32 := by
  ref_results
  all_goals rfl

/-- The second rectifier's seven operations leave in the result buffer the rectifier of the second product buffer at
    the slope buffer. -/
private theorem actN_v27 (V : Valuation τ sig (Elt Ideal)) :
    after (opsActN (F := Ideal)) V (main_v27 : DevRef τ sig) = leakyN (V (main_v26 : DevRef τ sig)) (V (main_cst_4 : DevRef τ sig)) := by
  ref_results
  all_goals rfl

/-! ## The whole line -/

/-- The fold at the result buffer is the composed term: the six stretches' effects, substituted into one another from
    the last to the first, are the term's own nesting. -/
private theorem refOut_eq (V : Valuation τ sig (Elt Ideal)) :
    after (refOps (F := Ideal)) V (main_v27 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [refOps_eq, after_app, after_app, after_app, after_app, after_app,
    actN_v27, mid_v26, mid_cst4, actE_v20, actE_v1, actE_arg0, actE_arg5,
    prodE_v19, prodE_cst, prodE_v1, prodE_arg0, prodE_arg5,
    rows_v9, rows_v16, rows_v1, rows_v2, rows_arg0, rows_arg4, rows_arg5,
    dup_v0, dup_v1, dup_v2, dup_arg0, dup_arg4, dup_arg5]
  rfl

/-! No operation writes an argument: each keeps its launch contents through the whole line. -/

private theorem refArg0_eq (V : Valuation τ sig (Elt Ideal)) :
    after (refOps (F := Ideal)) V (main_arg0 : DevRef τ sig) = V (main_arg0 : DevRef τ sig) := by
  ref_results_simp
private theorem refArg1_eq (V : Valuation τ sig (Elt Ideal)) :
    after (refOps (F := Ideal)) V (main_arg1 : DevRef τ sig) = V (main_arg1 : DevRef τ sig) := by
  ref_results_simp
private theorem refArg2_eq (V : Valuation τ sig (Elt Ideal)) :
    after (refOps (F := Ideal)) V (main_arg2 : DevRef τ sig) = V (main_arg2 : DevRef τ sig) := by
  ref_results_simp
private theorem refArg3_eq (V : Valuation τ sig (Elt Ideal)) :
    after (refOps (F := Ideal)) V (main_arg3 : DevRef τ sig) = V (main_arg3 : DevRef τ sig) := by
  ref_results_simp
private theorem refArg4_eq (V : Valuation τ sig (Elt Ideal)) :
    after (refOps (F := Ideal)) V (main_arg4 : DevRef τ sig) = V (main_arg4 : DevRef τ sig) := by
  ref_results_simp
private theorem refArg5_eq (V : Valuation τ sig (Elt Ideal)) :
    after (refOps (F := Ideal)) V (main_arg5 : DevRef τ sig) = V (main_arg5 : DevRef τ sig) := by
  ref_results_simp

/-- Every weakly fair execution of the reference ends, nothing faulting, with the result buffer at the composed term
    of the six arguments and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨(h c main_v27).trans (refOut_eq _), (h c main_arg0).trans (refArg0_eq _), (h c main_arg1).trans (refArg1_eq _),
      (h c main_arg2).trans (refArg2_eq _), (h c main_arg3).trans (refArg3_eq _), (h c main_arg4).trans (refArg4_eq _),
      (h c main_arg5).trans (refArg5_eq _)⟩)
    (run_seq refScopedRefs_eq refScopedSems_eq defs main (fun _ => refOps) refMain_eq (fun _ => refOps_sub) m ρ)

end Cert.ReferenceIdeal.GnnRef

end
-- ==== Proof.RefValue.lean ====
import proofs.«407627_j49795850829975_3_alg».proof.Proof.RefTerm
import proofs.«407627_j49795850829975_3_alg».proof.Proof.Spec
import proofs.«407627_j49795850829975_3_alg».proof.Proof.LibSegment
import Idealize.ShloMosaic.PureOps.Ideal.Laws
import Idealize.ShloMosaic.Lib.ValueIdx
import Idealize.ShloMosaic.Lib.Pipeline.Value
import Idealize.ShloMosaic.Lib.StackMember

/-! # The reference's term, read entry by entry, is the layer over the concatenated rows and the doubled edge list -/

noncomputable section

open scoped BigOperators

namespace Cert.ReferenceIdeal.GnnRef

open Idealize.ShloMosaic Idealize.ShloMosaic.ValueIdx
open Cert.ReferenceIdeal Cert.Gnn

/-! ## Each operation of the term at one index

Every lemma below reads one operation of the term at an index given by its coordinates; none looks at more than one
entry of a table. -/

section Reads

open Idealize.ShloMosaic.StableHlo.Predicate (ixP bcast_scalar bcast_col1)
open Cert.ReferenceIdeal.Facts₀

/-- The rectifier as the reference spells it, at one entry: slope · y on the right of the select, against y · slope. -/
private theorem lk_read (y : EReal) :
    Scalar.select (Ideal.cmp .oge y (Ideal.ofBits .f32 0x00000000#32)) y (Ideal.ofBits .f32 0x3C23D70A#32 * y) = lk y := by
  unfold lk Cert.Gnn.slope
  rw [Ideal.ofBits_zero_f32, mul_comm]

/-- The rectifier on the node table, read at an entry: both scalars are read through their broadcasts. -/
private theorem leakyN_apply (y : FVec Ideal S100000x64 .f32) (i : S100000x64.Idx) :
    leakyN y (constant (F := Ideal) S_ .f32 0x3C23D70A#32) i = lk (y i) := by
  unfold leakyN
  rw [select_apply, cmpf_apply, mulf_apply, bcast_scalar _ (by decide), bcast_scalar _ (by decide)]
  exact lk_read (y i)

/-- The same on the table of the doubled edge list. -/
private theorem leakyE_apply (y : FVec Ideal S1000000x64 .f32) (i : S1000000x64.Idx) :
    leakyE y (constant (F := Ideal) S_ .f32 0x3C23D70A#32) i = lk (y i) := by
  unfold leakyE
  rw [select_apply, cmpf_apply, mulf_apply, bcast_scalar _ (by decide), bcast_scalar _ (by decide)]
  exact lk_read (y i)

/-- The 160-wide product at (e, o): the sum over the contracted column (the dimension numbers are the plain
    rows-by-columns ones, contracting axis 1 of the left with axis 0 of the right). -/
private theorem dotE_apply (X : FVec Ideal S1000000x160 .f32) (W : FVec Ideal S160x64 .f32) (e : Fin 1000000) (o : Fin 64) :
    Host.dotGeneral dot_S1000000x160_S160x64_S1000000x64_1_0_0_1_n_n none X W (ix2 e o)
      = ∑ k : Fin 160, X (ix2 e k) * W (ix2 k o) :=
  StackMember.dotGeneral_plain_apply none X W e o

/-- The 128-wide product at (n, o), likewise. -/
private theorem dotN_apply (X : FVec Ideal S100000x128 .f32) (W : FVec Ideal S128x64 .f32) (n : Fin 100000) (o : Fin 64) :
    Host.dotGeneral dot_S100000x128_S128x64_S100000x64_1_0_0_1_n_n none X W (ix2 n o)
      = ∑ k : Fin 128, X (ix2 n k) * W (ix2 k o) :=
  StackMember.dotGeneral_plain_apply none X W n o

/-- The transposed weight at (k, o) is the weight at (o, k). -/
private theorem trE_apply (a4 : FVec Ideal S64x160 .f32) (k : Fin 160) (o : Fin 64) :
    transpose S160x64 [1, 0] a4 transposes_S64x160_S160x64_1_0 (ix2 k o) = a4 (ix2 o k) :=
  transpose_apply [1, 0] a4 transposes_S64x160_S160x64_1_0 (ix2 k o) (ix2 o k) fun b =>
    match b with
    | ⟨0, _⟩ => rfl
    | ⟨1, _⟩ => rfl

/-- The same for the second weight. -/
private theorem trN_apply (a5 : FVec Ideal S64x128 .f32) (k : Fin 128) (o : Fin 64) :
    transpose S128x64 [1, 0] a5 transposes_S64x128_S128x64_1_0 (ix2 k o) = a5 (ix2 o k) :=
  transpose_apply [1, 0] a5 transposes_S64x128_S128x64_1_0 (ix2 k o) (ix2 o k) fun b =>
    match b with
    | ⟨0, _⟩ => rfl
    | ⟨1, _⟩ => rfl

/-! ## The concatenations -/

/-- Three tables side by side, 64 + 64 + 32 columns: column k is read in the first below 64, in the second at k − 64 below
    128, in the third at k − 128 from there on. -/
private theorem cat160_apply (A B : FVec Ideal S1000000x64 .f32) (C : FVec Ideal S1000000x32 .f32) (e : Fin 1000000) (k : Fin 160) :
    concatenate S1000000x160 1 [⟨S1000000x64, A⟩, ⟨S1000000x64, B⟩, ⟨S1000000x32, C⟩]
        concatenates_S1000000x64_S1000000x64_S1000000x32_S1000000x160_d1 (ix2 e k)
      = if h : k.val < 64 then A (ix2 e ⟨k.val, h⟩)
        else if h2 : k.val < 128 then B (ix2 e ⟨k.val - 64, by omega⟩)
        else C (ix2 e ⟨k.val - 128, by omega⟩) := by
  have hk := k.isLt
  by_cases h : k.val < 64
  · rw [dif_pos h]
    exact concatenate_apply_piece _ _ _ (ix2 e k) 0 (by simp) S1000000x64 A rfl rfl 0 rfl (ix2 e ⟨k.val, h⟩)
      (fun b => match b with
        | ⟨0, _⟩ => fun _ => rfl
        | ⟨1, _⟩ => fun hb => absurd rfl hb)
      (by show 0 + k.val = k.val; omega)
  · rw [dif_neg h]
    by_cases h2 : k.val < 128
    · rw [dif_pos h2]
      exact concatenate_apply_piece _ _ _ (ix2 e k) 1 (by simp) S1000000x64 B rfl rfl 64 rfl (ix2 e ⟨k.val - 64, by omega⟩)
        (fun b => match b with
          | ⟨0, _⟩ => fun _ => rfl
          | ⟨1, _⟩ => fun hb => absurd rfl hb)
        (by show 64 + (k.val - 64) = k.val; omega)
    · rw [dif_neg h2]
      exact concatenate_apply_piece _ _ _ (ix2 e k) 2 (by simp) S1000000x32 C rfl rfl 128 rfl (ix2 e ⟨k.val - 128, by omega⟩)
        (fun b => match b with
          | ⟨0, _⟩ => fun _ => rfl
          | ⟨1, _⟩ => fun hb => absurd rfl hb)
        (by show 128 + (k.val - 128) = k.val; omega)

/-- Two 64-column tables side by side: column k is read in the first below 64, in the second at k − 64 from there on. -/
private theorem cat128_apply (A B : FVec Ideal S100000x64 .f32) (n : Fin 100000) (k : Fin 128) :
    concatenate S100000x128 1 [⟨S100000x64, A⟩, ⟨S100000x64, B⟩] concatenates_S100000x64_S100000x64_S100000x128_d1 (ix2 n k)
      = if h : k.val < 64 then A (ix2 n ⟨k.val, h⟩) else B (ix2 n ⟨k.val - 64, by omega⟩) := by
  have hk := k.isLt
  by_cases h : k.val < 64
  · rw [dif_pos h]
    exact concatenate_pair_apply_left _ A B _ (ix2 n k) rfl (ix2 n ⟨k.val, h⟩)
      (fun b => match b with
        | ⟨0, _⟩ => rfl
        | ⟨1, _⟩ => rfl)
  · rw [dif_neg h]
    exact concatenate_pair_apply_right _ A B _ (ix2 n k) rfl rfl (ix2 n ⟨k.val - 64, by omega⟩)
      (fun b => match b with
        | ⟨0, _⟩ => fun _ => rfl
        | ⟨1, _⟩ => fun hb => absurd rfl hb)
      (by show (k.val - 64) + 64 = k.val; omega)

/-- Two lists of 500000 end to end: entry e' is the first list's below 500000, the second's at e' − 500000 from there on. -/
private theorem pairCat_apply (x y : IVec S500000 32) (e' : Fin 1000000) :
    concatenate S1000000 0 [⟨S500000, x⟩, ⟨S500000, y⟩] concatenates_S500000_S500000_S1000000_d0 (ix1 e')
      = if h : e'.val < 500000 then x (ix1 ⟨e'.val, h⟩) else y (ix1 ⟨e'.val - 500000, by omega⟩) := by
  have hk := e'.isLt
  by_cases h : e'.val < 500000
  · rw [dif_pos h]
    exact concatenate_pair_apply_left _ x y _ (ix1 e') rfl (ix1 ⟨e'.val, h⟩)
      (fun b => match b with
        | ⟨0, _⟩ => rfl)
  · rw [dif_neg h]
    exact concatenate_pair_apply_right _ x y _ (ix1 e') rfl rfl (ix1 ⟨e'.val - 500000, by omega⟩)
      (fun b => match b with
        | ⟨0, _⟩ => fun hb => absurd rfl hb)
      (by show (e'.val - 500000) + 500000 = e'.val; omega)

/-- The doubled first endpoints … -/
private theorem srcCat_apply (a2 a3 : IVec S500000 32) (e' : Fin 1000000) : srcCat a2 a3 (ix1 e') = srcAll a2 a3 e' :=
  pairCat_apply a2 a3 e'

/-- … the doubled second endpoints (the two lists in the other order) … -/
private theorem dstCat_apply (a2 a3 : IVec S500000 32) (e' : Fin 1000000) : dstCat a2 a3 (ix1 e') = dstAll a2 a3 e' :=
  pairCat_apply a3 a2 e'

/-- … and the edge table twice over: row e' is the row of the edge e' repeats. -/
private theorem efCat_apply (a1 : FVec Ideal S500000x32 .f32) (e' : Fin 1000000) (k : Fin 32) :
    efCat a1 (ix2 e' k) = a1 (ix2 (edgeOf e') k) := by
  have hk := e'.isLt
  unfold efCat edgeOf
  by_cases h : e'.val < 500000
  · rw [dif_pos h]
    exact concatenate_pair_apply_left _ a1 a1 _ (ix2 e' k) rfl (ix2 ⟨e'.val, h⟩ k)
      (fun b => match b with
        | ⟨0, _⟩ => rfl
        | ⟨1, _⟩ => rfl)
  · rw [dif_neg h]
    exact concatenate_pair_apply_right _ a1 a1 _ (ix2 e' k) rfl rfl (ix2 ⟨e'.val - 500000, by omega⟩ k)
      (fun b => match b with
        | ⟨0, _⟩ => fun hb => absurd rfl hb
        | ⟨1, _⟩ => fun _ => rfl)
      (by show (e'.val - 500000) + 500000 = e'.val; omega)

/-! ## The wrap, the gather -/

/-- The two spellings of the rank-1 index at a coordinate agree. -/
private theorem ofFin_eq_ix1 {n : Nat} (p : Fin n) : Shape.Idx.ofFin p = ix1 p := by
  funext a
  match a with
  | ⟨0, _⟩ => rfl

/-- The wrapped index column at row e' is the index itself when it is not negative: the signed comparison with 0 is
    false there, so the select takes its second operand. -/
private theorem wrapCol_apply (ids : IVec S1000000 32) (e' : Fin 1000000) (h0 : 0 ≤ (ids (ix1 e')).toInt) :
    wrapCol ids (ixP e') = ids (ix1 e') := by
  unfold wrapCol
  rw [bcast_col1, ofFin_eq_ix1, select_apply]
  have hc : cmpi .slt ids (broadcastInDim S1000000 ![] bcast_S_S1000000 (constantI S_ 32 0#32)) (ix1 e') = 0#1 := by
    show IntOp.cmpi .slt (ids (ix1 e')) (broadcastInDim S1000000 ![] bcast_S_S1000000 (constantI S_ 32 0#32) (ix1 e')) = 0#1
    rw [bcast_scalar _ (by decide)]
    show BitVec.ofBool ((ids (ix1 e')).slt 0#32) = 0#1
    have hs : (ids (ix1 e')).slt 0#32 = false := by
      simp [BitVec.slt]
      omega
    rw [hs]
    rfl
  rw [hc, select_zero]

/-- A gathered row: under the wrap, for an index that is not negative, row e' is the node row the index names (read
    signed, clamped into the table), column by column. -/
private theorem gather_apply (a0 : FVec Ideal S100000x64 .f32) (ids : IVec S1000000 32) (e' : Fin 1000000) (k : Fin 64)
    (h0 : 0 ≤ (ids (ix1 e')).toInt) :
    Host.gather gather_S100000x64_S1000000x1_S1000000x64_1_0_n_n_0_1_164 a0 (wrapCol ids) (ix2 e' k)
      = a0 (ix2 (rowOf (ids (ix1 e'))) k) := by
  refine (Cert.Segment.gather_rows _ rfl rfl rfl rfl rfl a0 (wrapCol ids) e' k (by omega)).trans ?_
  have hrow : (⟨min (wrapCol ids (ixP e')).toInt.toNat (100000 - 1), by omega⟩ : Fin 100000) = rowOf (ids (ix1 e')) :=
    Fin.ext (by show min _ _ = min _ _; rw [wrapCol_apply ids e' h0])
  exact congrArg (fun r => a0 (ix2 r k)) hrow

/-! ## The doubled lists stay in range -/

/-- Every entry of the doubled first endpoints is an entry of one of the two lists, so it is not negative … -/
private theorem srcAll_nonneg (a2 a3 : IVec S500000 32) (hs : InRange a2) (hd : InRange a3) (e' : Fin 1000000) :
    0 ≤ (srcAll a2 a3 e').toInt := by
  unfold srcAll
  split
  · exact (hs _).1
  · exact (hd _).1

/-- … and so is every entry of the doubled second endpoints. -/
private theorem dstAll_nonneg (a2 a3 : IVec S500000 32) (hs : InRange a2) (hd : InRange a3) (e' : Fin 1000000) :
    0 ≤ (dstAll a2 a3 e').toInt := by
  unfold dstAll
  split
  · exact (hd _).1
  · exact (hs _).1

/-! ## The three layers -/

/-- The 160-wide row of a doubled edge as the reference builds it is the concatenated row [nf first | nf second | ef]. -/
private theorem catRow_read (a0 : FVec Ideal S100000x64 .f32) (a1 : FVec Ideal S500000x32 .f32) (a2 a3 : IVec S500000 32)
    (hs : InRange a2) (hd : InRange a3) (e' : Fin 1000000) (k : Fin 160) :
    concatenate S1000000x160 1
        [⟨S1000000x64, Host.gather gather_S100000x64_S1000000x1_S1000000x64_1_0_n_n_0_1_164 a0 (wrapCol (srcCat a2 a3))⟩,
         ⟨S1000000x64, Host.gather gather_S100000x64_S1000000x1_S1000000x64_1_0_n_n_0_1_164 a0 (wrapCol (dstCat a2 a3))⟩,
         ⟨S1000000x32, efCat a1⟩]
        concatenates_S1000000x64_S1000000x64_S1000000x32_S1000000x160_d1 (ix2 e' k)
      = catRow a0 a1 a2 a3 e' k := by
  have hsrc : 0 ≤ (srcCat a2 a3 (ix1 e')).toInt := by rw [srcCat_apply]; exact srcAll_nonneg a2 a3 hs hd e'
  have hdst : 0 ≤ (dstCat a2 a3 (ix1 e')).toInt := by rw [dstCat_apply]; exact dstAll_nonneg a2 a3 hs hd e'
  rw [cat160_apply]
  unfold catRow
  by_cases h : k.val < 64
  · rw [dif_pos h, dif_pos h, gather_apply a0 (srcCat a2 a3) e' _ hsrc, srcCat_apply]
  · rw [dif_neg h, dif_neg h]
    by_cases h2 : k.val < 128
    · rw [dif_pos h2, dif_pos h2, gather_apply a0 (dstCat a2 a3) e' _ hdst, dstCat_apply]
    · rw [dif_neg h2, dif_neg h2, efCat_apply]

/-- A message of the doubled list: the rectifier of the concatenated row times the weight's row o. -/
private theorem msgTerm_apply (a0 : FVec Ideal S100000x64 .f32) (a1 : FVec Ideal S500000x32 .f32) (a2 a3 : IVec S500000 32)
    (a4 : FVec Ideal S64x160 .f32) (hs : InRange a2) (hd : InRange a3) (e' : Fin 1000000) (o : Fin 64) :
    msgTerm a0 a1 a2 a3 a4 (ix2 e' o) = msgAll a0 a1 a2 a3 a4 e' o := by
  unfold msgTerm msgAll
  rw [leakyE_apply, dotE_apply]
  refine congrArg lk (Finset.sum_congr rfl fun k _ => ?_)
  rw [trE_apply, catRow_read a0 a1 a2 a3 hs hd]

/-- What arrives at node n: the scatter into the zero table adds, at (n, k), the k-th entries of the messages whose second
    endpoint, read signed, is n. -/
private theorem redTerm_apply (a0 : FVec Ideal S100000x64 .f32) (a1 : FVec Ideal S500000x32 .f32) (a2 a3 : IVec S500000 32)
    (a4 : FVec Ideal S64x160 .f32) (hs : InRange a2) (hd : InRange a3) (n : Fin 100000) (k : Fin 64) :
    redTerm a0 a1 a2 a3 a4 (ix2 n k) = redAll a0 a1 a2 a3 a4 n k := by
  unfold redTerm redAll
  rw [Host.scatterAdd, Ideal.hostScatterAdd_def,
    Cert.Segment.hostScatterAdd_rows scatter_S100000x64_S1000000x1_S1000000x64_1_0_0_1 rfl rfl rfl rfl,
    bcast_scalar _ (by decide), constant_apply, Ideal.ofBits_zero_f32]
  refine congrArg (0 + ·) (Finset.sum_congr (Finset.filter_congr fun e' _ => ?_) fun e' _ =>
    msgTerm_apply a0 a1 a2 a3 a4 hs hd e' k)
  rw [bcast_col1, ofFin_eq_ix1, dstCat_apply]

/-- The 128-wide row of a node as the reference builds it is [nf n | what arrives at n]. -/
private theorem catNode_read (a0 : FVec Ideal S100000x64 .f32) (a1 : FVec Ideal S500000x32 .f32) (a2 a3 : IVec S500000 32)
    (a4 : FVec Ideal S64x160 .f32) (hs : InRange a2) (hd : InRange a3) (n : Fin 100000) (k : Fin 128) :
    concatenate S100000x128 1 [⟨S100000x64, a0⟩, ⟨S100000x64, redTerm a0 a1 a2 a3 a4⟩]
        concatenates_S100000x64_S100000x64_S100000x128_d1 (ix2 n k)
      = catNode a0 a1 a2 a3 a4 n k := by
  rw [cat128_apply]
  unfold catNode
  by_cases h : k.val < 64
  · rw [dif_pos h, dif_pos h]
  · rw [dif_neg h, dif_neg h, redTerm_apply a0 a1 a2 a3 a4 hs hd]

end Reads

/-- With every endpoint a row of the node table (so the wrap of negative indices changes nothing), the reference's term
    is the layer over the concatenated rows. -/
theorem refTerm_eq (a0 : FVec Ideal S100000x64 .f32) (a1 : FVec Ideal S500000x32 .f32) (a2 a3 : IVec S500000 32)
    (a4 : FVec Ideal S64x160 .f32) (a5 : FVec Ideal S64x128 .f32) (hs : InRange a2) (hd : InRange a3) :
    (refTerm a0 a1 a2 a3 a4 a5 : Tab 100000 64) = layerAll a0 a1 a2 a3 a4 a5 := by
  funext i
  obtain ⟨n, o, rfl⟩ : ∃ n o, i = ix2 n o := ⟨i 0, i 1, eq_ix2 i⟩
  unfold refTerm layerAll
  rw [leakyN_apply, dotN_apply, tab2_ix2]
  refine congrArg lk (Finset.sum_congr rfl fun k _ => ?_)
  rw [trN_apply, catNode_read a0 a1 a2 a3 a4 hs hd]

end Cert.ReferenceIdeal.GnnRef

end
-- ==== Proof.PreFacts.lean ====
import proofs.«407627_j49795850829975_3_alg».proof.Pre_finite_inputs
import proofs.«407627_j49795850829975_3_alg».proof.Proof.Gen.Pre_finite_inputs
import proofs.«407627_j49795850829975_3_alg».proof.Proof.Spec
import Idealize.ShloMosaic.PureOps.Ideal
import Idealize.ShloMosaic.Lib.ReduceAll
import Idealize.ShloMosaic.Lib.StableHlo.Predicate

/-! # What the precondition says of the two endpoint lists: every endpoint is a row of the node table -/

noncomputable section

namespace Cert.Gnn

open Idealize.ShloMosaic Idealize.ShloMosaic.ValueIdx
open Cert.Pre_finite_inputs

/-- A word that compares at least 0 and below 100000, both signed, reads as an integer of that range. -/
private theorem range_of_cmp (w : BitVec 32) (h0 : IntOp.cmpi .sge w 0#32 = 1#1) (h1 : IntOp.cmpi .slt w 100000#32 = 1#1) :
    0 ≤ w.toInt ∧ w.toInt < 100000 := by
  have z : (0#32 : BitVec 32).toInt = 0 := by decide
  have c : (100000#32 : BitVec 32).toInt = 100000 := by decide
  have a := IntOp.cmpi_sge.1 h0
  have b := IntOp.cmpi_slt.1 h1
  rw [z] at a
  rw [c] at b
  exact ⟨a, b⟩

/-- The printed precondition, all ones, gives 0 ≤ index < 100000 (read signed) for every first and every second endpoint. -/
theorem inRange_of_pre (a0 : FVec Ideal S100000x64 .f32) (a1 : FVec Ideal S500000x32 .f32) (a2 a3 : IVec S500000 32)
    (a4 : FVec Ideal S64x160 .f32) (a5 : FVec Ideal S64x128 .f32)
    (h : Cert.Pre_finite_inputs.fn (F := Ideal) a0 a1 a2 a3 a4 a5 = fun _ => 1#1) :
    InRange a2 ∧ InRange a3 := by
  -- the result has one index only
  haveI : Subsingleton S_.Idx := ⟨fun a b => funext fun d => d.elim0⟩
  have h0 := congrFun h ValueIdx.ix0
  dsimp only [Cert.Pre_finite_inputs.fn, Cert.Pre_finite_inputs.fn_part1] at h0
  -- a conjunction of six bits is one: each of them is; the last two are the tests of the two endpoint lists
  simp only [andi, IntOp.andi_eq_one] at h0
  obtain ⟨⟨-, h2⟩, h3⟩ := h0
  refine ⟨fun e => ?_, fun e => ?_⟩
  · -- a conjunction over all positions is one: the bit at position e is
    have t := Host.reduce_andi_all _ _ _ _ _ h2 (ix1 e)
    simp only [andi, cmpi, broadcastInDim, constantI, IntOp.andi_eq_one] at t
    exact range_of_cmp _ t.1 t.2
  · have t := Host.reduce_andi_all _ _ _ _ _ h3 (ix1 e)
    simp only [andi, cmpi, broadcastInDim, constantI, IntOp.andi_eq_one] at t
    exact range_of_cmp _ t.1 t.2

end Cert.Gnn

end
-- ==== Proof.Algebra.lean ====
import proofs.«407627_j49795850829975_3_alg».proof.Proof.Spec

/-!
# The two spellings of the layer are one function

A sum over the 160 (or 128) columns of a concatenated row is the sum over its pieces; a sum over the doubled edge
list, restricted to the edges that arrive at a node, is the sum over the first copy plus the sum over the second.
On the first copy a doubled edge is the edge itself; on the second it is the edge with its endpoints swapped. Nothing
else is used: addition of extended reals is commutative and associative, and 0 + x = x.
-/

noncomputable section

open scoped BigOperators

namespace Cert.Gnn

open Idealize.ShloMosaic Idealize.ShloMosaic.ValueIdx

/-! ## Sums over a range cut in two -/

theorem sum_fin_add {M : Type*} [AddCommMonoid M] (a b : Nat) (f : Fin (a + b) → M) :
    ∑ k, f k = ∑ k : Fin a, f ⟨k.val, by omega⟩ + ∑ k : Fin b, f ⟨a + k.val, by omega⟩ := by
  rw [Fin.sum_univ_add]; rfl

theorem sum_filter_fin_add {M : Type*} [AddCommMonoid M] (a b : Nat) (p : Fin (a + b) → Prop) [DecidablePred p]
    (g : Fin (a + b) → M) :
    ∑ e ∈ Finset.univ.filter p, g e
      = ∑ e ∈ Finset.univ.filter (fun e : Fin a => p ⟨e.val, by omega⟩), g ⟨e.val, by omega⟩
        + ∑ e ∈ Finset.univ.filter (fun e : Fin b => p ⟨a + e.val, by omega⟩), g ⟨a + e.val, by omega⟩ := by
  rw [Finset.sum_filter, sum_fin_add, Finset.sum_filter, Finset.sum_filter]

theorem sum_128 {M : Type*} [AddCommMonoid M] (f : Fin 128 → M) :
    ∑ k, f k = ∑ k : Fin 64, f ⟨k.val, by omega⟩ + ∑ k : Fin 64, f ⟨64 + k.val, by omega⟩ :=
  sum_fin_add 64 64 f

theorem sum_160 {M : Type*} [AddCommMonoid M] (f : Fin 160 → M) :
    ∑ k, f k = (∑ k : Fin 64, f ⟨k.val, by omega⟩ + ∑ k : Fin 64, f ⟨64 + k.val, by omega⟩)
      + ∑ k : Fin 32, f ⟨128 + k.val, by omega⟩ := by
  refine (sum_fin_add 128 32 f).trans ?_
  congr 1
  exact sum_fin_add 64 64 (fun k : Fin 128 => f ⟨k.val, by omega⟩)

theorem sum_filter_1000000 {M : Type*} [AddCommMonoid M] (p : Fin 1000000 → Prop) [DecidablePred p] (g : Fin 1000000 → M) :
    ∑ e ∈ Finset.univ.filter p, g e
      = ∑ e ∈ Finset.univ.filter (fun e : Fin 500000 => p ⟨e.val, by omega⟩), g ⟨e.val, by omega⟩
        + ∑ e ∈ Finset.univ.filter (fun e : Fin 500000 => p ⟨500000 + e.val, by omega⟩), g ⟨500000 + e.val, by omega⟩ :=
  sum_filter_fin_add 500000 500000 p g

section
variable (nf : Tab 100000 64) (ef : Tab 500000 32) (src dst : Ids 500000) (We : Tab 64 160) (Wn : Tab 64 128)

/-! ## The doubled edge list on its two copies -/

theorem srcAll_lo (e : Fin 500000) (h : e.val < 1000000) : srcAll src dst ⟨e.val, h⟩ = src (ix1 e) := by
  unfold srcAll; rw [dif_pos e.isLt]
theorem dstAll_lo (e : Fin 500000) (h : e.val < 1000000) : dstAll src dst ⟨e.val, h⟩ = dst (ix1 e) := by
  unfold dstAll; rw [dif_pos e.isLt]
theorem edgeOf_lo (e : Fin 500000) (h : e.val < 1000000) : edgeOf ⟨e.val, h⟩ = e := by
  unfold edgeOf; rw [dif_pos e.isLt]
theorem srcAll_hi (e : Fin 500000) (h : 500000 + e.val < 1000000) : srcAll src dst ⟨500000 + e.val, h⟩ = dst (ix1 e) := by
  unfold srcAll; rw [dif_neg (show ¬ (500000 + e.val < 500000) by omega)]
  exact congrArg (fun x : Fin 500000 => dst (ix1 x)) (Fin.ext (show 500000 + e.val - 500000 = e.val by omega))
theorem dstAll_hi (e : Fin 500000) (h : 500000 + e.val < 1000000) : dstAll src dst ⟨500000 + e.val, h⟩ = src (ix1 e) := by
  unfold dstAll; rw [dif_neg (show ¬ (500000 + e.val < 500000) by omega)]
  exact congrArg (fun x : Fin 500000 => src (ix1 x)) (Fin.ext (show 500000 + e.val - 500000 = e.val by omega))
theorem edgeOf_hi (e : Fin 500000) (h : 500000 + e.val < 1000000) : edgeOf ⟨500000 + e.val, h⟩ = e := by
  unfold edgeOf; rw [dif_neg (show ¬ (500000 + e.val < 500000) by omega)]; exact Fin.ext (show 500000 + e.val - 500000 = e.val by omega)

/-! ## A concatenated row on its three pieces -/

theorem catRow_0 (e' : Fin 1000000) (k : Fin 64) (h : k.val < 160) :
    catRow nf ef src dst e' ⟨k.val, h⟩ = nf (ix2 (rowOf (srcAll src dst e')) k) := by
  unfold catRow; rw [dif_pos k.isLt]
theorem catRow_1 (e' : Fin 1000000) (k : Fin 64) (h : 64 + k.val < 160) :
    catRow nf ef src dst e' ⟨64 + k.val, h⟩ = nf (ix2 (rowOf (dstAll src dst e')) k) := by
  have hk := k.isLt
  unfold catRow; rw [dif_neg (show ¬ (64 + k.val < 64) by omega), dif_pos (show 64 + k.val < 128 by omega)]; congr 2
  exact Fin.ext (show 64 + k.val - 64 = k.val by omega)
theorem catRow_2 (e' : Fin 1000000) (k : Fin 32) (h : 128 + k.val < 160) :
    catRow nf ef src dst e' ⟨128 + k.val, h⟩ = ef (ix2 (edgeOf e') k) := by
  unfold catRow; rw [dif_neg (show ¬ (128 + k.val < 64) by omega), dif_neg (show ¬ (128 + k.val < 128) by omega)]; congr 2
  exact Fin.ext (show 128 + k.val - 128 = k.val by omega)

/-- A weight's row block at (k, o) is the weight at (o, off + k). -/
theorem wRows_apply {C : Nat} (W : Tab 64 C) (off r : Nat) (h : off + r ≤ C) (k : Fin r) (o : Fin 64) (hk : off + k.val < C) :
    wRows W off r h (ix2 k o) = W (ix2 o ⟨off + k.val, hk⟩) := rfl

/-! ## A doubled edge's message on the two copies -/

theorem msgAll_lo (e : Fin 500000) (h : e.val < 1000000) (o : Fin 64) :
    msgAll nf ef src dst We ⟨e.val, h⟩ o = msgAlong nf ef src dst We (ix2 e o) := by
  unfold msgAll msgAlong msgTab
  rw [tab2_ix2, sum_160]
  simp only [catRow_0, catRow_1, catRow_2, srcAll_lo, dstAll_lo, edgeOf_lo, takeTab, wRows, tab2_ix2, Nat.zero_add]

theorem msgAll_hi (e : Fin 500000) (h : 500000 + e.val < 1000000) (o : Fin 64) :
    msgAll nf ef src dst We ⟨500000 + e.val, h⟩ o = msgAgainst nf ef src dst We (ix2 e o) := by
  unfold msgAll msgAgainst msgTab
  rw [tab2_ix2, sum_160]
  simp only [catRow_0, catRow_1, catRow_2, srcAll_hi, dstAll_hi, edgeOf_hi, takeTab, wRows, tab2_ix2, Nat.zero_add]

/-! ## What arrives at a node -/

theorem redAll_eq (n : Fin 100000) (k : Fin 64) :
    redAll nf ef src dst We n k = arrive nf ef src dst We (ix2 n k) := by
  unfold redAll arrive
  show _ = segTab dst (msgAlong nf ef src dst We) (ix2 n k) + segTab src (msgAgainst nf ef src dst We) (ix2 n k)
  unfold segTab
  rw [tab2_ix2, tab2_ix2, sum_filter_1000000]
  simp only [dstAll_lo, dstAll_hi, msgAll_lo, msgAll_hi, zero_add]

/-! ## A node's concatenated row on its two pieces -/

theorem catNode_0 (n : Fin 100000) (k : Fin 64) (h : k.val < 128) :
    catNode nf ef src dst We n ⟨k.val, h⟩ = nf (ix2 n k) := by
  unfold catNode; rw [dif_pos k.isLt]
theorem catNode_1 (n : Fin 100000) (k : Fin 64) (h : 64 + k.val < 128) :
    catNode nf ef src dst We n ⟨64 + k.val, h⟩ = redAll nf ef src dst We n k := by
  unfold catNode; rw [dif_neg (show ¬ (64 + k.val < 64) by omega)]; congr 1
  exact Fin.ext (show 64 + k.val - 64 = k.val by omega)

/-- The layer over the concatenated rows and the doubled edge list is the layer split at the seams. -/
theorem layerAll_eq_layer : layerAll nf ef src dst We Wn = layer nf ef src dst We Wn := by
  funext i
  obtain ⟨n, o, rfl⟩ : ∃ n o, i = ix2 n o := ⟨_, _, eq_ix2 i⟩
  unfold layerAll layer finTab
  rw [tab2_ix2, tab2_ix2, sum_128]
  simp only [catNode_0, catNode_1, redAll_eq, wRows, tab2_ix2, Nat.zero_add]

end

end Cert.Gnn

end
-- ==== Proof.lean ====
/-
  The certificate of a message-passing layer: a kernel program of three launches (two message launches with the two
  gathered tables swapped, one node-update launch) among host gathers, scatter-adds and weight slices, against a
  reference that concatenates the doubled edge list and multiplies whole rows.

  Under the precondition every edge endpoint names a row of the node table. Then the kernel program's result is the layer
  split at the seams of the concatenated rows (KValue.lean, over the three launches' arrays and the host tables between
  them), the reference's result is the layer over the concatenated rows and the doubled edge list (RefRun.lean,
  RefValue.lean), and the two are one function because addition of extended reals is commutative and associative
  (Algebra.lean). The frames of the two kernel programs are the generated ones; the reference's frame is its run with the
  result dropped; the ideal pass rewrote nothing, so there is nothing to preserve.
-/
import proofs.«407627_j49795850829975_3_alg».proof.Defs
import proofs.«407627_j49795850829975_3_alg».proof.Proof.Gen.Kernel
import proofs.«407627_j49795850829975_3_alg».proof.Proof.Gen.Kernel.Skeleton
import proofs.«407627_j49795850829975_3_alg».proof.Proof.Gen.Kernel.Launch
import proofs.«407627_j49795850829975_3_alg».proof.Proof.Gen.Kernel.Points
import proofs.«407627_j49795850829975_3_alg».proof.Proof.Gen.Kernel.Frame
import proofs.«407627_j49795850829975_3_alg».proof.Proof.Gen.KernelIdeal
import proofs.«407627_j49795850829975_3_alg».proof.Proof.Gen.KernelIdeal.Skeleton
import proofs.«407627_j49795850829975_3_alg».proof.Proof.Gen.KernelIdeal.Launch
import proofs.«407627_j49795850829975_3_alg».proof.Proof.Gen.KernelIdeal.Points
import proofs.«407627_j49795850829975_3_alg».proof.Proof.Gen.KernelIdeal.Frame
import proofs.«407627_j49795850829975_3_alg».proof.Proof.Gen.ReferenceIdeal
import proofs.«407627_j49795850829975_3_alg».proof.Proof.Gen.Pre_finite_inputs
import proofs.«407627_j49795850829975_3_alg».proof.Proof.KRun
import proofs.«407627_j49795850829975_3_alg».proof.Proof.KValue
import proofs.«407627_j49795850829975_3_alg».proof.Proof.RefRun
import proofs.«407627_j49795850829975_3_alg».proof.Proof.RefValue
import proofs.«407627_j49795850829975_3_alg».proof.Proof.PreFacts
import proofs.«407627_j49795850829975_3_alg».proof.Proof.Algebra
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.GnnRef.run m ρ)

/-- Both programs end with the layer of the arguments in their result buffers. -/
theorem algebraic : Cert.algebraic_KernelIdeal_ReferenceIdeal := by
  intro m ρ m' ρ' hpre hagree
  have hr : ∀ c : Dev Cert.KernelIdeal.nD,
      Cert.Gnn.InRange (Cert.KernelIdeal.GnnK.srcOf m c) ∧ Cert.Gnn.InRange (Cert.KernelIdeal.GnnK.dstOf m c) :=
    fun c => Cert.Gnn.inRange_of_pre _ _ _ _ _ _ (hpre c)
  refine ⟨fun c => Cert.Gnn.layer (Cert.KernelIdeal.GnnK.nfOf m c) (Cert.KernelIdeal.GnnK.efOf m c)
      (Cert.KernelIdeal.GnnK.srcOf m c) (Cert.KernelIdeal.GnnK.dstOf m c) (Cert.KernelIdeal.GnnK.WeOf m c)
      (Cert.KernelIdeal.GnnK.WnOf m c), ?_, ?_⟩
  · exact (θ_run Cert.KernelIdeal.defs _ _).mono
      (fun _ h c => ⟨(h c).1.trans (Cert.KernelIdeal.GnnK.result_eq m ρ c (hr c).1 (hr c).2), (h c).2⟩)
      (Cert.KernelIdeal.GnnRun.run (F := Ideal) m ρ)
  · refine (θ_run Cert.ReferenceIdeal.defs _ _).mono (fun _ h c => ⟨(h c).1.trans ?_, (h c).2⟩)
      (Cert.ReferenceIdeal.GnnRef.run m' ρ')
    obtain ⟨h0, h1, h2, h3, h4, h5⟩ := hagree c
    rw [h0, h1, h2, h3, h4, h5]
    exact (Cert.ReferenceIdeal.GnnRef.refTerm_eq _ _ _ _ _ _ (hr c).1 (hr c).2).trans
      (Cert.Gnn.layerAll_eq_layer _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
